-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2 : Shape := ⟨2, ![4194304, 2]⟩
abbrev S_ : Shape := ⟨0, ![]⟩

class Facts : Prop where
  bcast_S_S4194304x2 : S_.BroadcastsInDim S4194304x2 (![] : Fin 0 → Fin S4194304x2.rank)
  reducesTo_S4194304x2_S_d0_1 : S4194304x2.ReducesTo [0, 1] S_
  h_S_ : 0 < S_.numel

variable [Facts]

def fn {F : FTy → Type} [FloatOps F] (main_arg0 : FVec F S4194304x2 .f32) (main_arg1 : IVec S4194304x2 32) : IVec S_ 1 :=
  let main_v0 : FVec F S4194304x2 .f32 := Host.absf main_arg0
  let main_cst : FVec F S_ .f32 := constant S_ .f32 0x7F800000#32
  let main_v1 : FVec F S4194304x2 .f32 := broadcastInDim S4194304x2 ![] bcast_S_S4194304x2 main_cst
  let main_v2 : IVec S4194304x2 1 := cmpf .olt main_v0 main_v1
  let main_c : IVec S_ 1 := constantI S_ 1 1#1
  let main_v3 : IVec S_ 1 := (fun x v => Host.reduce IntOp.andi x v reducesTo_S4194304x2_S_d0_1 h_S_) main_v2 main_c
  main_v3
-- ==== Kernel.lean ====
abbrev S4194304x2 : Shape := ⟨2, ![4194304, 2]⟩
abbrev S8388608 : Shape := ⟨1, ![8388608]⟩
abbrev S65536x128 : Shape := ⟨2, ![65536, 128]⟩
abbrev S1x128 : Shape := ⟨2, ![1, 128]⟩
abbrev S2048x128 : Shape := ⟨2, ![2048, 128]⟩
abbrev S1x1x128 : Shape := ⟨3, ![1, 1, 128]⟩
abbrev S1x64 : Shape := ⟨2, ![1, 64]⟩
abbrev S64x128 : Shape := ⟨2, ![64, 128]⟩
abbrev S64x128x1 : Shape := ⟨3, ![64, 128, 1]⟩
abbrev S64x128x128 : Shape := ⟨3, ![64, 128, 128]⟩
abbrev S64 : Shape := ⟨1, ![64]⟩
abbrev S_ : Shape := ⟨0, ![]⟩
abbrev S8388608x1 : Shape := ⟨2, ![8388608, 1]⟩

abbrev nBuf : Space → Nat
  | .hbm => 20
  | .vmem => 4
  | .smem => 0
  | _ => 0

abbrev bufTy : (tb : Table) → Fin (tcTables nBuf tb) → BufTy
  | .hbm, ⟨0, _⟩ => ⟨S4194304x2, .f32⟩
  | .hbm, ⟨1, _⟩ => ⟨S4194304x2, .i32⟩
  | .hbm, ⟨2, _⟩ => ⟨S8388608, .f32⟩
  | .hbm, ⟨3, _⟩ => ⟨S8388608, .i32⟩
  | .hbm, ⟨4, _⟩ => ⟨S65536x128, .i32⟩
  | .hbm, ⟨5, _⟩ => ⟨S1x128, .f32⟩
  | .hbm, ⟨6, _⟩ => ⟨S1x64, .f32⟩
  | .hbm, ⟨7, _⟩ => ⟨S64, .f32⟩
  | .hbm, ⟨8, _⟩ => ⟨S8388608, .i32⟩
  | .hbm, ⟨9, _⟩ => ⟨S8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i1⟩
  | .hbm, ⟨14, _⟩ => ⟨S_, .i32⟩
  | .hbm, ⟨15, _⟩ => ⟨S8388608, .i32⟩
  | .hbm, ⟨16, _⟩ => ⟨S8388608, .i32⟩
  | .hbm, ⟨17, _⟩ => ⟨S8388608, .i32⟩
  | .hbm, ⟨18, _⟩ => ⟨S8388608x1, .i32⟩
  | .hbm, ⟨19, _⟩ => ⟨S8388608, .f32⟩
  | .local _ .vmem, ⟨0, _⟩ => ⟨S2048x128, .i32⟩
  | .local _ .vmem, ⟨1, _⟩ => ⟨S2048x128, .i32⟩
  | .local _ .vmem, ⟨2, _⟩ => ⟨S1x128, .f32⟩
  | .local _ .vmem, ⟨3, _⟩ => ⟨S1x128, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1_0 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def k0_mult1 : BitVec 32 :=
  let c0_i32_1 : BitVec 32 := 0#32
  let c64_i32 : BitVec 32 := 64#32
  let v5 : BitVec 32 := Scalar.muli c0_i32_1 c64_i32
  v5
def k0_off1 (c0_i32_1 : BitVec 32) : Fin 2 → Nat :=
  let c64_i32 : BitVec 32 := 64#32
  let v5 : BitVec 32 := Scalar.muli c0_i32_1 c64_i32
  let v6 : BitVec 32 := v5
  let v7 : Index := Scalar.indexCast v6
  let c0 : Index := 0#32
  ![v7.toNat, 0]
def k0_mult2 : BitVec 32 :=
  let c1_i32 : BitVec 32 := 1#32
  let c64_i32_8 : BitVec 32 := 64#32
  let v23 : BitVec 32 := Scalar.muli c1_i32 c64_i32_8
  v23
def k0_mult3 : BitVec 32 :=
  let c2_i32 : BitVec 32 := 2#32
  let c64_i32_16 : BitVec 32 := 64#32
  let v41 : BitVec 32 := Scalar.muli c2_i32 c64_i32_16
  v41
def k0_mult4 : BitVec 32 :=
  let c3_i32 : BitVec 32 := 3#32
  let c64_i32_24 : BitVec 32 := 64#32
  let v59 : BitVec 32 := Scalar.muli c3_i32 c64_i32_24
  v59
def k0_mult5 : BitVec 32 :=
  let c4_i32 : BitVec 32 := 4#32
  let c64_i32_32 : BitVec 32 := 64#32
  let v77 : BitVec 32 := Scalar.muli c4_i32 c64_i32_32
  v77
def k0_mult6 : BitVec 32 :=
  let c5_i32 : BitVec 32 := 5#32
  let c64_i32_40 : BitVec 32 := 64#32
  let v95 : BitVec 32 := Scalar.muli c5_i32 c64_i32_40
  v95
def k0_mult7 : BitVec 32 :=
  let c6_i32 : BitVec 32 := 6#32
  let c64_i32_48 : BitVec 32 := 64#32
  let v113 : BitVec 32 := Scalar.muli c6_i32 c64_i32_48
  v113
def k0_mult8 : BitVec 32 :=
  let c7_i32 : BitVec 32 := 7#32
  let c64_i32_56 : BitVec 32 := 64#32
  let v131 : BitVec 32 := Scalar.muli c7_i32 c64_i32_56
  v131
def k0_mult9 : BitVec 32 :=
  let c8_i32 : BitVec 32 := 8#32
  let c64_i32_64 : BitVec 32 := 64#32
  let v149 : BitVec 32 := Scalar.muli c8_i32 c64_i32_64
  v149
def k0_mult10 : BitVec 32 :=
  let c9_i32 : BitVec 32 := 9#32
  let c64_i32_72 : BitVec 32 := 64#32
  let v167 : BitVec 32 := Scalar.muli c9_i32 c64_i32_72
  v167
def k0_mult11 : BitVec 32 :=
  let c10_i32 : BitVec 32 := 10#32
  let c64_i32_80 : BitVec 32 := 64#32
  let v185 : BitVec 32 := Scalar.muli c10_i32 c64_i32_80
  v185
def k0_mult12 : BitVec 32 :=
  let c11_i32 : BitVec 32 := 11#32
  let c64_i32_88 : BitVec 32 := 64#32
  let v203 : BitVec 32 := Scalar.muli c11_i32 c64_i32_88
  v203
def k0_mult13 : BitVec 32 :=
  let c12_i32 : BitVec 32 := 12#32
  let c64_i32_96 : BitVec 32 := 64#32
  let v221 : BitVec 32 := Scalar.muli c12_i32 c64_i32_96
  v221
def k0_mult14 : BitVec 32 :=
  let c13_i32 : BitVec 32 := 13#32
  let c64_i32_104 : BitVec 32 := 64#32
  let v239 : BitVec 32 := Scalar.muli c13_i32 c64_i32_104
  v239
def k0_mult15 : BitVec 32 :=
  let c14_i32 : BitVec 32 := 14#32
  let c64_i32_112 : BitVec 32 := 64#32
  let v257 : BitVec 32 := Scalar.muli c14_i32 c64_i32_112
  v257
def k0_mult16 : BitVec 32 :=
  let c15_i32 : BitVec 32 := 15#32
  let c64_i32_120 : BitVec 32 := 64#32
  let v275 : BitVec 32 := Scalar.muli c15_i32 c64_i32_120
  v275
def k0_mult17 : BitVec 32 :=
  let c16_i32 : BitVec 32 := 16#32
  let c64_i32_128 : BitVec 32 := 64#32
  let v293 : BitVec 32 := Scalar.muli c16_i32 c64_i32_128
  v293
def k0_mult18 : BitVec 32 :=
  let c17_i32 : BitVec 32 := 17#32
  let c64_i32_136 : BitVec 32 := 64#32
  let v311 : BitVec 32 := Scalar.muli c17_i32 c64_i32_136
  v311
def k0_mult19 : BitVec 32 :=
  let c18_i32 : BitVec 32 := 18#32
  let c64_i32_144 : BitVec 32 := 64#32
  let v329 : BitVec 32 := Scalar.muli c18_i32 c64_i32_144
  v329
def k0_mult20 : BitVec 32 :=
  let c19_i32 : BitVec 32 := 19#32
  let c64_i32_152 : BitVec 32 := 64#32
  let v347 : BitVec 32 := Scalar.muli c19_i32 c64_i32_152
  v347
def k0_mult21 : BitVec 32 :=
  let c20_i32 : BitVec 32 := 20#32
  let c64_i32_160 : BitVec 32 := 64#32
  let v365 : BitVec 32 := Scalar.muli c20_i32 c64_i32_160
  v365
def k0_mult22 : BitVec 32 :=
  let c21_i32 : BitVec 32 := 21#32
  let c64_i32_168 : BitVec 32 := 64#32
  let v383 : BitVec 32 := Scalar.muli c21_i32 c64_i32_168
  v383
def k0_mult23 : BitVec 32 :=
  let c22_i32 : BitVec 32 := 22#32
  let c64_i32_176 : BitVec 32 := 64#32
  let v401 : BitVec 32 := Scalar.muli c22_i32 c64_i32_176
  v401
def k0_mult24 : BitVec 32 :=
  let c23_i32 : BitVec 32 := 23#32
  let c64_i32_184 : BitVec 32 := 64#32
  let v419 : BitVec 32 := Scalar.muli c23_i32 c64_i32_184
  v419
def k0_mult25 : BitVec 32 :=
  let c24_i32 : BitVec 32 := 24#32
  let c64_i32_192 : BitVec 32 := 64#32
  let v437 : BitVec 32 := Scalar.muli c24_i32 c64_i32_192
  v437
def k0_mult26 : BitVec 32 :=
  let c25_i32 : BitVec 32 := 25#32
  let c64_i32_200 : BitVec 32 := 64#32
  let v455 : BitVec 32 := Scalar.muli c25_i32 c64_i32_200
  v455
def k0_mult27 : BitVec 32 :=
  let c26_i32 : BitVec 32 := 26#32
  let c64_i32_208 : BitVec 32 := 64#32
  let v473 : BitVec 32 := Scalar.muli c26_i32 c64_i32_208
  v473
def k0_mult28 : BitVec 32 :=
  let c27_i32 : BitVec 32 := 27#32
  let c64_i32_216 : BitVec 32 := 64#32
  let v491 : BitVec 32 := Scalar.muli c27_i32 c64_i32_216
  v491
def k0_mult29 : BitVec 32 :=
  let c28_i32 : BitVec 32 := 28#32
  let c64_i32_224 : BitVec 32 := 64#32
  let v509 : BitVec 32 := Scalar.muli c28_i32 c64_i32_224
  v509
def k0_mult30 : BitVec 32 :=
  let c29_i32 : BitVec 32 := 29#32
  let c64_i32_232 : BitVec 32 := 64#32
  let v527 : BitVec 32 := Scalar.muli c29_i32 c64_i32_232
  v527
def k0_mult31 : BitVec 32 :=
  let c30_i32 : BitVec 32 := 30#32
  let c64_i32_240 : BitVec 32 := 64#32
  let v545 : BitVec 32 := Scalar.muli c30_i32 c64_i32_240
  v545
def k0_mult32 : BitVec 32 :=
  let c31_i32 : BitVec 32 := 31#32
  let c64_i32_248 : BitVec 32 := 64#32
  let v563 : BitVec 32 := Scalar.muli c31_i32 c64_i32_248
  v563
def k0_cond2 (i : grid0.Coords) : BitVec 1 :=
  let arg0 : BitVec 32 := BitVec.ofNat 32 (i 0).val
  let c31_i32_256 : BitVec 32 := 31#32
  let v581 : BitVec 1 := Scalar.cmpi .eq arg0 c31_i32_256
  let v582 : BitVec 32 := Scalar.extui v581
  let c0_i32_257 : BitVec 32 := 0#32
  let v583 : BitVec 1 := Scalar.cmpi .ne v582 c0_i32_257
  v583

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S4194304x2_S8388608 : S4194304x2.ShapeCasts S8388608
  shapeCasts_S8388608_S65536x128 : S8388608.ShapeCasts S65536x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S1x1x128_d2_w32 : S1x1x128.Iotas .tc 32 [2]
  h_S64x128 : 0 < S64x128.numel
  shapeCasts_S64x128_S64x128 : S64x128.ShapeCasts S64x128
  shapeCasts_S64x128_S64x128x1 : S64x128.ShapeCasts S64x128x1
  broadcasts_S64x128x1_S64x128x128 : S64x128x1.Broadcasts S64x128x128
  broadcasts_S1x1x128_S64x128x128 : S1x1x128.Broadcasts S64x128x128
  natLt_1_32 : 1 < 32
  reduces_S64x128x128_S64x128 : S64x128x128.Reduces [1] S64x128
  slices_S1x128_S1x64_0_0 : S1x128.Slices ![0, 0] S1x64
  shapeCasts_S1x64_S64 : S1x64.ShapeCasts S64
  bcast_S_S8388608 : S_.BroadcastsInDim S8388608 (![] : Fin 0 → Fin S8388608.rank)
  bcast_S8388608_S8388608x1_0 : S8388608.BroadcastsInDim S8388608x1 (![0] : Fin 1 → Fin S8388608x1.rank)
  dot_S1x64_S64x128_S1x128_1_0_0_1_n_n_wf : DotDims.WF S1x64 S64x128 S1x128 [1] [0] [0] [1] [] []
  gather_S8388608_S8388608x1_S8388608_n_0_n_n_0_1_1_wf : GatherDims.WF S8388608 S8388608x1 S8388608 [] [0] [] [0] [] 1 ![1]
  hrank0 : 0 < grid0.rank
  k0_mult1_dvd : 64 ∣ k0_mult1.toNat
  k0_off1_inb : ∀ (r : Fin 32), ∀ a, (k0_off1 (BitVec.ofNat 32 r.val)) a + S64x128.size a ≤ S2048x128.size a
  k0_mult2_dvd : 64 ∣ k0_mult2.toNat
  k0_mult3_dvd : 64 ∣ k0_mult3.toNat
  k0_mult4_dvd : 64 ∣ k0_mult4.toNat
  k0_mult5_dvd : 64 ∣ k0_mult5.toNat
  k0_mult6_dvd : 64 ∣ k0_mult6.toNat
  k0_mult7_dvd : 64 ∣ k0_mult7.toNat
  k0_mult8_dvd : 64 ∣ k0_mult8.toNat
  k0_mult9_dvd : 64 ∣ k0_mult9.toNat
  k0_mult10_dvd : 64 ∣ k0_mult10.toNat
  k0_mult11_dvd : 64 ∣ k0_mult11.toNat
  k0_mult12_dvd : 64 ∣ k0_mult12.toNat
  k0_mult13_dvd : 64 ∣ k0_mult13.toNat
  k0_mult14_dvd : 64 ∣ k0_mult14.toNat
  k0_mult15_dvd : 64 ∣ k0_mult15.toNat
  k0_mult16_dvd : 64 ∣ k0_mult16.toNat
  k0_mult17_dvd : 64 ∣ k0_mult17.toNat
  k0_mult18_dvd : 64 ∣ k0_mult18.toNat
  k0_mult19_dvd : 64 ∣ k0_mult19.toNat
  k0_mult20_dvd : 64 ∣ k0_mult20.toNat
  k0_mult21_dvd : 64 ∣ k0_mult21.toNat
  k0_mult22_dvd : 64 ∣ k0_mult22.toNat
  k0_mult23_dvd : 64 ∣ k0_mult23.toNat
  k0_mult24_dvd : 64 ∣ k0_mult24.toNat
  k0_mult25_dvd : 64 ∣ k0_mult25.toNat
  k0_mult26_dvd : 64 ∣ k0_mult26.toNat
  k0_mult27_dvd : 64 ∣ k0_mult27.toNat
  k0_mult28_dvd : 64 ∣ k0_mult28.toNat
  k0_mult29_dvd : 64 ∣ k0_mult29.toNat
  k0_mult30_dvd : 64 ∣ k0_mult30.toNat
  k0_mult31_dvd : 64 ∣ k0_mult31.toNat
  k0_mult32_dvd : 64 ∣ k0_mult32.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .i32 = 32 ∨ (Rect.block (s := S65536x128) S2048x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)

variable [Facts₀]

def dot_S1x64_S64x128_S1x128_1_0_0_1_n_n : DotDims S1x64 S64x128 S1x128 where
  lhsContracting := [1]
  rhsContracting := [0]
  lhsNonContracting := [0]
  rhsNonContracting := [1]
  lhsBatch := []
  rhsBatch := []
  wf := dot_S1x64_S64x128_S1x128_1_0_0_1_n_n_wf
def comparator_i32_i32_d0 : BitVec 32 × BitVec 32 → BitVec 32 × BitVec 32 → BitVec 1 :=
  fun l r =>
    let v2 := IntOp.cmpi .slt l.1 r.1
    v2
def gather_S8388608_S8388608x1_S8388608_n_0_n_n_0_1_1 : GatherDims S8388608 S8388608x1 S8388608 where
  offsetDims := []
  collapsedSliceDims := [0]
  operandBatchingDims := []
  startIndicesBatchingDims := []
  startIndexMap := [0]
  indexVectorDim := 1
  sliceSizes := ![1]
  wf := gather_S8388608_S8388608x1_S8388608_n_0_n_n_0_1_1_wf

abbrev win0_0 : Pipeline.Window sig grid0 :=
  Pipeline.Window.ofSpec (Memref.whole main_v2) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4194304x2 : Shape := ⟨2, ![4194304, 2]⟩
abbrev S8388608 : Shape := ⟨1, ![8388608]⟩
abbrev S_ : Shape := ⟨0, ![]⟩
abbrev S64 : Shape := ⟨1, ![64]⟩
abbrev S8388608x1 : Shape := ⟨2, ![8388608, 1]⟩

abbrev nBuf : Space → Nat
  | .hbm => 22
  | .vmem => 0
  | .smem => 0
  | _ => 0

abbrev bufTy : (tb : Table) → Fin (tcTables nBuf tb) → BufTy
  | .hbm, ⟨0, _⟩ => ⟨S4194304x2, .f32⟩
  | .hbm, ⟨1, _⟩ => ⟨S4194304x2, .i32⟩
  | .hbm, ⟨2, _⟩ => ⟨S8388608, .i32⟩
  | .hbm, ⟨3, _⟩ => ⟨S_, .f32⟩
  | .hbm, ⟨4, _⟩ => ⟨S8388608, .f32⟩
  | .hbm, ⟨5, _⟩ => ⟨S_, .f32⟩
  | .hbm, ⟨6, _⟩ => ⟨S64, .f32⟩
  | .hbm, ⟨7, _⟩ => ⟨S8388608x1, .i32⟩
  | .hbm, ⟨8, _⟩ => ⟨S64, .f32⟩
  | .hbm, ⟨9, _⟩ => ⟨S8388608, .i32⟩
  | .hbm, ⟨10, _⟩ => ⟨S8388608, .i32⟩
  | .hbm, ⟨11, _⟩ => ⟨S8388608, .i32⟩
  | .hbm, ⟨12, _⟩ => ⟨S8388608, .f32⟩
  | .hbm, ⟨13, _⟩ => ⟨S_, .i32⟩
  | .hbm, ⟨14, _⟩ => ⟨S8388608, .i32⟩
  | .hbm, ⟨15, _⟩ => ⟨S8388608, .i1⟩
  | .hbm, ⟨16, _⟩ => ⟨S_, .i32⟩
  | .hbm, ⟨17, _⟩ => ⟨S8388608, .i32⟩
  | .hbm, ⟨18, _⟩ => ⟨S8388608, .i32⟩
  | .hbm, ⟨19, _⟩ => ⟨S8388608, .i32⟩
  | .hbm, ⟨20, _⟩ => ⟨S8388608x1, .i32⟩
  | .hbm, ⟨21, _⟩ => ⟨S8388608, .f32⟩
  | _, _ => ⟨S4194304x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1_0 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  shapeCasts_S4194304x2_S8388608 : S4194304x2.ShapeCasts S8388608
  bcast_S_S8388608 : S_.BroadcastsInDim S8388608 (![] : Fin 0 → Fin S8388608.rank)
  bcast_S_S64 : S_.BroadcastsInDim S64 (![] : Fin 0 → Fin S64.rank)
  bcast_S8388608_S8388608x1_0 : S8388608.BroadcastsInDim S8388608x1 (![0] : Fin 1 → Fin S8388608x1.rank)
  scatter_S64_S8388608x1_S8388608_n_0_0_1_wf : ScatterDims.WF S64 S8388608x1 S8388608 [] [0] [0] 1
  gather_S8388608_S8388608x1_S8388608_n_0_n_n_0_1_1_wf : GatherDims.WF S8388608 S8388608x1 S8388608 [] [0] [] [0] [] 1 ![1]

variable [Facts₀]

def scatter_S64_S8388608x1_S8388608_n_0_0_1 : ScatterDims S64 S8388608x1 S8388608 where
  updateWindowDims := []
  insertedWindowDims := [0]
  scatterDimsToOperandDims := [0]
  indexVectorDim := 1
  wf := scatter_S64_S8388608x1_S8388608_n_0_0_1_wf
def comparator_i32_i32_d0 : BitVec 32 × BitVec 32 → BitVec 32 × BitVec 32 → BitVec 1 :=
  fun l r =>
    let v2 := IntOp.cmpi .slt l.1 r.1
    v2
def gather_S8388608_S8388608x1_S8388608_n_0_n_n_0_1_1 : GatherDims S8388608 S8388608x1 S8388608 where
  offsetDims := []
  collapsedSliceDims := [0]
  operandBatchingDims := []
  startIndicesBatchingDims := []
  startIndexMap := [0]
  indexVectorDim := 1
  sliceSizes := ![1]
  wf := gather_S8388608_S8388608x1_S8388608_n_0_n_n_0_1_1_wf

class Facts : Prop extends Facts₀ where

variable [Facts]
-- ==== Proof.Spec.lean ====
/-
  One token's contribution to an expert's count, as an extended real: the kernel's one-hot entry
  (compare two words, widen the bit, read it as a float) is 1 where the words agree and 0 elsewhere.
-/
import Idealize.ShloMosaic.PureOps.Ideal
import Idealize.ShloMosaic.PureOps.Ideal.Laws
import Idealize.ShloMosaic.Lib.ValueIdx
import Mathlib.Algebra.BigOperators.Intervals
import Mathlib.Algebra.BigOperators.Fin

noncomputable section

namespace Cert.Hist

open Idealize.ShloMosaic Idealize.ShloMosaic.ValueIdx

/-- `hit w e` is 1 when the word `w` is the word `e` and 0 otherwise. -/
def hit (w e : BitVec 32) : EReal := if w = e then 1 else 0

/-- The one-hot entry at the ideal values: comparing two words for equality, widening the bit to 32 bits
    and converting it as a signed integer gives `hit`. -/
theorem onehot_eq (w e : BitVec 32) :
    FloatOps.sitofp (F := Ideal) .f32 ((IntOp.cmpi .eq w e).setWidth 32) = hit w e := by
  show (((((IntOp.cmpi .eq w e).setWidth 32).toInt : ℤ) : ℝ) : EReal) = hit w e
  unfold hit
  by_cases h : w = e
  · subst h
    rw [if_pos rfl]
    have : (IntOp.cmpi .eq w w) = 1#1 := by
      show BitVec.ofBool (w == w) = 1#1
      rw [beq_self_eq_true]; rfl
    rw [this]
    norm_num
  · rw [if_neg h]
    have : (IntOp.cmpi .eq w e) = 0#1 := by
      show BitVec.ofBool (w == e) = 0#1
      rw [beq_eq_false_iff_ne.mpr h]; rfl
    rw [this]
    norm_num

/-! ## Counting an expert among the first entries of a family of ids

Both programs count, for each expert e, the ids equal to e among all 8,388,608 flattened ids: the reference by
adding a one at position id for every id, the kernel row by row of a 65,536 × 128 arrangement of the same ids.
`count` is the count along a flat family, `tally` the count along a family of 128-wide rows, and
`tally_eq_count` says they agree when the rows are the flat family cut into rows of 128. -/

/-- How many of the first `n` entries of `f` are the word `e`. -/
def count (f : ℕ → BitVec 32) (e : BitVec 32) (n : ℕ) : EReal := ∑ j ∈ Finset.range n, hit (f j) e

/-- How many entries of the first `n` rows of `g` are the word `e`. -/
def tally (g : ℕ → Fin 128 → BitVec 32) (e : BitVec 32) (n : ℕ) : EReal :=
  ∑ r ∈ Finset.range n, ∑ l : Fin 128, hit (g r l) e

theorem tally_zero (g : ℕ → Fin 128 → BitVec 32) (e : BitVec 32) : tally g e 0 = 0 := by
  unfold tally; rw [Finset.range_zero, Finset.sum_empty]

/-- The first n + k rows are the first n and the k after them. -/
theorem tally_add (g : ℕ → Fin 128 → BitVec 32) (e : BitVec 32) (n k : ℕ) :
    tally g e (n + k) = tally g e n + tally (fun r => g (n + r)) e k :=
  Finset.sum_range_add _ n k

/-- Rows that agree below `n` have the same tally. -/
theorem tally_congr {g g' : ℕ → Fin 128 → BitVec 32} (e : BitVec 32) (n : ℕ) (h : ∀ r, r < n → ∀ l, g r l = g' r l) :
    tally g e n = tally g' e n :=
  Finset.sum_congr rfl fun r hr => Finset.sum_congr rfl fun l _ => by rw [h r (Finset.mem_range.mp hr) l]

/-- Counting row by row is counting along the flat family. -/
theorem tally_eq_count (f : ℕ → BitVec 32) (e : BitVec 32) (n : ℕ) :
    tally (fun r l => f (128 * r + l.val)) e n = count f e (128 * n) := by
  induction n with
  | zero => unfold count; rw [tally_zero, Nat.mul_zero, Finset.range_zero, Finset.sum_empty]
  | succ n ih =>
    unfold count at ih ⊢
    rw [Nat.mul_succ, Finset.sum_range_add, ← ih]
    unfold tally
    rw [Finset.sum_range_succ]
    congr 1
    all_goals exact Fin.sum_univ_eq_sum_range (fun j => hit (f (128 * n + j)) e) 128

/-- The flattened (4194304, 2) array of ids at flat position `n` (positions read modulo the array's length). -/
def flat (x : (⟨2, ![4194304, 2]⟩ : Shape).Idx → BitVec 32) (n : ℕ) : BitVec 32 :=
  x (ix2 (⟨(n / 2) % 4194304, Nat.mod_lt _ (by decide)⟩ : Fin 4194304) (⟨n % 2, Nat.mod_lt _ (by decide)⟩ : Fin 2))

end Cert.Hist

end
-- ==== Proof.Chunk.lean ====
/-
  One chunk of the histogram kernel: 64 rows of 128 expert ids each.

  The kernel compares every id of the chunk with every expert number 0 … 127 (a 64 × 128 × 128 one-hot block),
  sums the block over the 128 lanes of a row (a 64 × 128 array: per row, how many of its ids are expert e), and
  multiplies a row of 64 ones into it, which sums over the 64 rows: a 1 × 128 row whose entry e is the number of
  ids in the chunk equal to e. That row is added to the running counts.

  `step` is this one iteration as a function of the lane numbers, the row of ones, the chunk and the running
  counts, written with the kernel's own operations at any float instance. At the ideal values its entry (0, e)
  is the running count plus the sum over the chunk's 64 × 128 ids of `hit id e`.
-/
import proofs.«404693_j60936995996121_3_alg».proof.KernelIdeal
import proofs.«404693_j60936995996121_3_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.Hist

open Idealize.ShloMosaic Idealize.ShloMosaic.ValueIdx Cert.KernelIdeal Cert.KernelIdeal.Facts₀ Cert.Hist

section AnyInstance

variable {F : FTy → Type} [FloatOps F] [Facts]

/-- The chunk's ids laid along a third axis and repeated 128 times along it. -/
def spread (ids : Vec F S64x128 .i32) : IVec S64x128x128 32 :=
  broadcastTo S64x128x128
    (shapeCast S64x128x1 (shapeCast S64x128 ids shapeCasts_S64x128_S64x128) shapeCasts_S64x128_S64x128x1)
    broadcasts_S64x128x1_S64x128x128

/-- The one-hot block from the spread ids: entry (k, l, e) is 1.0 where id (k, l) is lane number e. -/
def onehotOf (v3 : IVec S1x1x128 32) (sp : IVec S64x128x128 32) : FVec F S64x128x128 .f32 :=
  sitofp .f32 (extui 32 (cmpi .eq sp (broadcastTo S64x128x128 v3 broadcasts_S1x1x128_S64x128x128)) natLt_1_32)

/-- The chunk's counts from its one-hot block: the sum over the lanes of a row, then over the rows by the product
    with a row of ones. -/
def countOf (v4 : FVec F S1x64 .f32) (oh : FVec F S64x128x128 .f32) : FVec F S1x128 .f32 :=
  matmul dot_S1x64_S64x128_S1x128_1_0_0_1_n_n none v4
    (multiReduction .add [1] S64x128 oh 0x00000000#32 reduces_S64x128x128_S64x128 (.inl rfl) rfl)
    (constant S1x128 .f32 0x00000000#32)

/-- The chunk's counts. -/
def chunkCount (v3 : IVec S1x1x128 32) (v4 : FVec F S1x64 .f32) (ids : Vec F S64x128 .i32) : FVec F S1x128 .f32 :=
  countOf v4 (onehotOf v3 (spread (F := F) ids))

/-- One iteration: the running counts plus the chunk's. -/
def step (v3 : IVec S1x1x128 32) (v4 : FVec F S1x64 .f32) (ids : Vec F S64x128 .i32) (acc : Vec F S1x128 .f32) :
    FVec F S1x128 .f32 :=
  addf acc (chunkCount v3 v4 ids)

/-- The lane numbers 0 … 127 along the last axis. -/
def lanes : IVec S1x1x128 32 := iota .tc S1x1x128 32 [2] iota_S1x1x128_d2_w32

/-- A row of 64 ones. -/
def ones : FVec F S1x64 .f32 := broadcast S1x64 (Scalar.ofBits .f32 0x3F800000#32)

end AnyInstance

/-! ## Read at an index, at the ideal values -/

section AtIdeal

variable [Facts]

/-- The spread ids at (k, l, e) are id (k, l). -/
theorem spread_apply (ids : Vec Ideal S64x128 .i32) (k : Fin 64) (l : Fin 128) (e : Fin 128) :
    spread (F := Ideal) ids (ix3 k l e) = ids (ix2 k l) := by
  unfold spread
  refine (broadcastTo_apply _ broadcasts_S64x128x1_S64x128x128 (ix3 k l e) (ix3 k l (0 : Fin 1)) (fun a => ?_)).trans ?_
  · match a with
    | ⟨0, _⟩ => exact (if_neg (show ¬(64 : ℕ) = 1 by decide)).symm
    | ⟨1, _⟩ => exact (if_neg (show ¬(128 : ℕ) = 1 by decide)).symm
    | ⟨2, _⟩ => exact (if_pos rfl).symm
  refine (shapeCast_apply _ shapeCasts_S64x128_S64x128x1 (ix3 k l (0 : Fin 1)) (ix2 k l) ?_).trans ?_
  · rw [Shape.rowMajor_val_two, Shape.rowMajor_val_three]
    show k.val * 128 + l.val = (k.val * 128 + l.val) * 1 + 0
    omega
  rw [shapeCast_self]

/-- The lane numbers repeated over the block, at (k, l, e), are the word e. -/
theorem lanes_apply (k : Fin 64) (l : Fin 128) (e : Fin 128) :
    broadcastTo S64x128x128 lanes broadcasts_S1x1x128_S64x128x128 (ix3 k l e) = BitVec.ofNat 32 e.val := by
  refine (broadcastTo_apply _ broadcasts_S1x1x128_S64x128x128 (ix3 k l e) (ix3 (0 : Fin 1) (0 : Fin 1) e) (fun a => ?_)).trans ?_
  · match a with
    | ⟨0, _⟩ => exact (if_pos rfl).symm
    | ⟨1, _⟩ => exact (if_pos rfl).symm
    | ⟨2, _⟩ => exact (if_neg (show ¬(128 : ℕ) = 1 by decide)).symm
  unfold lanes
  exact iota_single_apply .tc S1x1x128 32 2 iota_S1x1x128_d2_w32 _

/-- The one-hot block at (k, l, e). -/
theorem onehot_apply (ids : Vec Ideal S64x128 .i32) (k : Fin 64) (l : Fin 128) (e : Fin 128) :
    onehotOf (F := Ideal) lanes (spread (F := Ideal) ids) (ix3 k l e) = hit (ids (ix2 k l)) (BitVec.ofNat 32 e.val) := by
  unfold onehotOf
  show FloatOps.sitofp (F := Ideal) .f32
      ((IntOp.cmpi .eq (spread (F := Ideal) ids (ix3 k l e))
        (broadcastTo S64x128x128 lanes broadcasts_S1x1x128_S64x128x128 (ix3 k l e))).setWidth 32) = _
  rw [spread_apply, lanes_apply]
  exact onehot_eq _ _

/-- The block summed over a row's lanes, at (k, e): how many ids of row k are expert e. -/
theorem rowsum_apply (ids : Vec Ideal S64x128 .i32) (k : Fin 64) (e : Fin 128) :
    multiReduction .add [1] S64x128 (onehotOf (F := Ideal) lanes (spread (F := Ideal) ids)) 0x00000000#32
        reduces_S64x128x128_S64x128 (.inl rfl) rfl (ix2 k e)
      = ∑ l : Fin 128, hit (ids (ix2 k l)) (BitVec.ofNat 32 e.val) := by
  refine (Ideal.multiReduction_add_single _ _ reduces_S64x128x128_S64x128 _ _ (ix2 k e)).trans ?_
  refine Finset.sum_congr rfl fun l _ => ?_
  have hl : reduces_S64x128x128_S64x128.lift (ix2 k e) l = ix3 k l e :=
    funext fun a => Fin.ext (by
      match a with
      | ⟨0, _⟩ => rfl
      | ⟨1, _⟩ => rfl
      | ⟨2, _⟩ => rfl)
  rw [hl]
  exact onehot_apply ids k l e

/-- The right operand's index of the product at output (0, e) and contraction position q: row q, column e. -/
theorem dot_rhs_0 (j : S1x128.Idx) (q : dot_S1x64_S64x128_S1x128_1_0_0_1_n_n.contr.Idx) :
    (dot_S1x64_S64x128_S1x128_1_0_0_1_n_n.rhsIdx j q 0).val = (q ⟨0, Nat.one_pos⟩).val :=
  dot_S1x64_S64x128_S1x128_1_0_0_1_n_n.rhsIdx_val_of_single rfl j q

theorem dot_rhs_1 (j : S1x128.Idx) (q : dot_S1x64_S64x128_S1x128_1_0_0_1_n_n.contr.Idx) :
    (dot_S1x64_S64x128_S1x128_1_0_0_1_n_n.rhsIdx j q 1).val = (j 1).val := by
  unfold DotDims.rhsIdx
  rw [dif_neg (show ¬(1 : Fin S64x128.rank) ∈ dot_S1x64_S64x128_S1x128_1_0_0_1_n_n.rhsBatch from List.not_mem_nil),
    dif_pos (show (1 : Fin S64x128.rank) ∈ dot_S1x64_S64x128_S1x128_1_0_0_1_n_n.rhsNonContracting from List.mem_singleton.mpr rfl)]
  rfl

/-- The chunk's counts at (0, e): the number of ids of the chunk equal to e, as a sum of `hit`. -/
theorem chunkCount_apply (ids : Vec Ideal S64x128 .i32) (e : Fin 128) :
    chunkCount (F := Ideal) lanes ones ids (ix2 (0 : Fin 1) e)
      = ∑ k : Fin 64, ∑ l : Fin 128, hit (ids (ix2 k l)) (BitVec.ofNat 32 e.val) := by
  unfold chunkCount countOf
  show FloatOps.matmul dot_S1x64_S64x128_S1x128_1_0_0_1_n_n none (ones (F := Ideal))
      (multiReduction .add [1] S64x128 (onehotOf (F := Ideal) lanes (spread (F := Ideal) ids)) 0x00000000#32
        reduces_S64x128x128_S64x128 (.inl rfl) rfl)
      (constant S1x128 .f32 0x00000000#32) (ix2 (0 : Fin 1) e) = _
  rw [Ideal.matmul_constant_zero_apply]
  rw [← Equiv.sum_comp (contrEquiv1 dot_S1x64_S64x128_S1x128_1_0_0_1_n_n 64 rfl rfl).symm]
  refine Finset.sum_congr rfl fun k _ => ?_
  have hk := contrEquiv1_symm_val dot_S1x64_S64x128_S1x128_1_0_0_1_n_n 64 rfl rfl k
  have er : dot_S1x64_S64x128_S1x128_1_0_0_1_n_n.rhsIdx (ix2 (0 : Fin 1) e) ((contrEquiv1 dot_S1x64_S64x128_S1x128_1_0_0_1_n_n 64 rfl rfl).symm k) = ix2 k e :=
    funext fun a => Fin.ext (by
      match a with
      | ⟨0, _⟩ => exact (dot_rhs_0 _ _).trans hk
      | ⟨1, _⟩ => exact dot_rhs_1 _ _)
  rw [er, rowsum_apply]
  show Ideal.ofBits .f32 0x3F800000#32 * _ = _
  rw [Ideal.ofBits_one_f32, one_mul]

/-- One iteration at (0, e): the running count plus the chunk's. -/
theorem step_apply (ids : Vec Ideal S64x128 .i32) (acc : Vec Ideal S1x128 .f32) (e : Fin 128) :
    step (F := Ideal) lanes ones ids acc (ix2 (0 : Fin 1) e)
      = acc (ix2 (0 : Fin 1) e) + ∑ k : Fin 64, ∑ l : Fin 128, hit (ids (ix2 k l)) (BitVec.ofNat 32 e.val) := by
  unfold step
  rw [addf_apply, chunkCount_apply]

end AtIdeal

end Cert.KernelIdeal.Hist

end
-- ==== Proof.Pieces.lean ====
/-
  What one grid point leaves in the running counts.

  At a grid point the kernel body walks its 2048 × 128 block of expert ids in 32 chunks of 64 rows; each chunk
  adds its counts to the running counts (one `step`, Chunk.lean), which the body keeps in a scratch row
  stored and loaded back whole between the chunks. So whatever the body's text is cut into, the scratch after
  the point is `step` iterated over the 32 chunks from what the scratch held before: from the zero row at the
  first point, from the previous point's contents elsewhere; and at the last point the output block is a copy of
  the scratch.

  `rowsAt x o` is the chunk of rows o … o+63 of a block (row numbers read modulo 2048, so that the
  definition needs no bound), and `accFrom x a k` the running counts after the first k chunks from `a`.
-/
import proofs.«404693_j60936995996121_3_alg».proof.Proof.Gen.KernelIdeal.Frame
import proofs.«404693_j60936995996121_3_alg».proof.Proof.Chunk
import Idealize.ShloMosaic.Lib.Pipeline.Value

set_option maxRecDepth 16384

noncomputable section

namespace Cert.KernelIdeal.Hist

open Idealize.ShloMosaic Idealize.ShloMosaic.ValueIdx Idealize.ShloMosaic.Tactic
open Cert.KernelIdeal Cert.KernelIdeal.Gen Cert.KernelIdeal.Facts₀

variable {F : FTy → Type} [FloatOps F]

/-- Both offsets of a whole-buffer access are zero. -/
theorem off_zero : (![0, 0] : Fin 2 → ℕ) = fun _ => 0 := by
  funext a
  match a with
  | ⟨0, _⟩ => rfl
  | ⟨1, _⟩ => rfl

/-- Rows o … o+63 of a 2048-row block, the row number read modulo 2048. -/
def rowsAt (x : Vec F S2048x128 .i32) (o : ℕ) : Vec F S64x128 .i32 :=
  fun y => x (ix2 (⟨(o + (y 0).val) % 2048, Nat.mod_lt _ (by decide)⟩ : Fin 2048) (⟨(y 1).val, (y 1).isLt⟩ : Fin 128))

/-- A load of 64 whole rows from row o of the block is `rowsAt`. -/
theorem ld_rows (x : Vec F S2048x128 .i32) (o : ℕ)
    (inb : ∀ a, (![o, 0] : Fin S2048x128.rank → ℕ) a + (![64, 128] : Fin S2048x128.rank → ℕ) a ≤ S2048x128.size a) :
    View.ld (Val := Elt F) (e' := .i32) x
      (Rect.unit (s := S2048x128) (![o, 0] : Fin S2048x128.rank → ℕ) (![64, 128] : Fin S2048x128.rank → ℕ) inb) = rowsAt x o := by
  funext y
  show x ((Rect.unit (s := S2048x128) (![o, 0] : Fin S2048x128.rank → ℕ) (![64, 128] : Fin S2048x128.rank → ℕ) inb).emb y) = _
  unfold rowsAt
  refine congrArg x (funext fun a => Fin.ext ?_)
  have h0 : o + 64 ≤ 2048 := inb 0
  have hy : (y 0).val < 64 := (y 0).isLt
  match a with
  | ⟨0, _⟩ =>
    show o + 1 * (y 0).val = (o + (y 0).val) % 2048
    rw [Nat.mod_eq_of_lt (by omega)]; omega
  | ⟨1, _⟩ =>
    show 0 + 1 * (y 1).val = (y 1).val
    omega

/-- The running counts after the first k chunks of the block, from `a`. -/
def accFrom (x : Vec F S2048x128 .i32) (a : Vec F S1x128 .f32) : ℕ → FVec F S1x128 .f32
  | 0 => a
  | k + 1 => step lanes ones (rowsAt x (64 * k)) (accFrom x a k)

/-- The lane numbers, whatever evidence the iota carries. -/
theorem lanes_eq (h : S1x1x128.Iotas .tc 32 [2]) : iota .tc S1x1x128 32 [2] h = lanes := rfl

/-- The zero row the first point starts from. -/
def zeroRow : FVec F S1x128 .f32 := broadcast S1x128 (Scalar.ofBits .f32 0x00000000#32)

/-! ## The body's payloads in this vocabulary

The printed body is cut into payloads by position, so one iteration appears whole, or split after the ids were
spread, after the one-hot block, or after the chunk's counts; a stored value carries an identity shape cast. -/

theorem pay1_eq (v : FVec F S1x128 .f32) : k0_pay1 v = v := shapeCast_self v _
theorem pay6_eq (v : FVec F S1x128 .f32) : k0_pay6 v = v := shapeCast_self v _
theorem pay9_eq (v : FVec F S1x128 .f32) : k0_pay9 v = v := shapeCast_self v _
theorem pay26_eq (v : FVec F S1x128 .f32) : k0_pay26 v = v := shapeCast_self v _
theorem pay29_eq (v : FVec F S1x128 .f32) : k0_pay29 v = v := shapeCast_self v _
theorem pay2_eq : k0_pay2 (F := F) = zeroRow := shapeCast_self _ _
theorem pay3_eq : k0_pay3 (F := F) = ones := rfl
theorem pay4_eq (ids : Vec F S64x128 .i32) (acc : Vec F S1x128 .f32) : k0_pay4 ids acc = step lanes ones ids acc :=
  shapeCast_self _ _
theorem pay5_eq (ids : Vec F S64x128 .i32) (acc : Vec F S1x128 .f32) : k0_pay5 ids acc = step lanes ones ids acc := rfl
theorem pay7_eq (v3 : IVec S1x1x128 32) (v4 : FVec F S1x64 .f32) (ids : Vec F S64x128 .i32) (acc : Vec F S1x128 .f32) :
    k0_pay7 v3 v4 ids acc = step v3 v4 ids acc := shapeCast_self _ _
theorem pay10_eq (v3 : IVec S1x1x128 32) (v4 : FVec F S1x64 .f32) (ids : Vec F S64x128 .i32) (acc : Vec F S1x128 .f32) :
    k0_pay10 v3 v4 ids acc = step v3 v4 ids acc := shapeCast_self _ _
theorem pay11_eq (v3 : IVec S1x1x128 32) (v4 : FVec F S1x64 .f32) (ids : Vec F S64x128 .i32) (acc : Vec F S1x128 .f32) :
    k0_pay11 v3 v4 ids acc = step v3 v4 ids acc := shapeCast_self _ _
theorem pay12_eq (v3 : IVec S1x1x128 32) (v4 : FVec F S1x64 .f32) (ids : Vec F S64x128 .i32) (acc : Vec F S1x128 .f32) :
    k0_pay12 v3 v4 ids acc = step v3 v4 ids acc := shapeCast_self _ _
theorem pay13_eq (v3 : IVec S1x1x128 32) (v4 : FVec F S1x64 .f32) (ids : Vec F S64x128 .i32) (acc : Vec F S1x128 .f32) :
    k0_pay13 v3 v4 ids acc = step v3 v4 ids acc := shapeCast_self _ _
theorem pay14_eq (v3 : IVec S1x1x128 32) (v4 : FVec F S1x64 .f32) (ids : Vec F S64x128 .i32) (acc : Vec F S1x128 .f32) :
    k0_pay14 v3 v4 ids acc = step v3 v4 ids acc := shapeCast_self _ _
theorem pay15_eq (v3 : IVec S1x1x128 32) (v4 : FVec F S1x64 .f32) (ids : Vec F S64x128 .i32) (acc : Vec F S1x128 .f32) :
    k0_pay15 v3 v4 ids acc = step v3 v4 ids acc := shapeCast_self _ _
theorem pay18_eq (v3 : IVec S1x1x128 32) (v4 : FVec F S1x64 .f32) (ids : Vec F S64x128 .i32) (acc : Vec F S1x128 .f32) :
    k0_pay18 v3 v4 ids acc = step v3 v4 ids acc := shapeCast_self _ _
theorem pay21_eq (v3 : IVec S1x1x128 32) (v4 : FVec F S1x64 .f32) (ids : Vec F S64x128 .i32) (acc : Vec F S1x128 .f32) :
    k0_pay21 v3 v4 ids acc = step v3 v4 ids acc := shapeCast_self _ _
theorem pay24_eq (v3 : IVec S1x1x128 32) (v4 : FVec F S1x64 .f32) (ids : Vec F S64x128 .i32) (acc : Vec F S1x128 .f32) :
    k0_pay24 v3 v4 ids acc = step v3 v4 ids acc := shapeCast_self _ _
theorem pay27_eq (v3 : IVec S1x1x128 32) (v4 : FVec F S1x64 .f32) (ids : Vec F S64x128 .i32) (acc : Vec F S1x128 .f32) :
    k0_pay27 v3 v4 ids acc = step v3 v4 ids acc := shapeCast_self _ _
theorem pay30_eq (v3 : IVec S1x1x128 32) (v4 : FVec F S1x64 .f32) (ids : Vec F S64x128 .i32) (acc : Vec F S1x128 .f32) :
    k0_pay30 v3 v4 ids acc = step v3 v4 ids acc := shapeCast_self _ _
theorem pay31_eq (v3 : IVec S1x1x128 32) (v4 : FVec F S1x64 .f32) (ids : Vec F S64x128 .i32) (acc : Vec F S1x128 .f32) :
    k0_pay31 v3 v4 ids acc = step v3 v4 ids acc := shapeCast_self _ _
theorem pay32_eq (v3 : IVec S1x1x128 32) (v4 : FVec F S1x64 .f32) (ids : Vec F S64x128 .i32) (acc : Vec F S1x128 .f32) :
    k0_pay32 v3 v4 ids acc = step v3 v4 ids acc := shapeCast_self _ _
theorem pay33_eq (v3 : IVec S1x1x128 32) (v4 : FVec F S1x64 .f32) (ids : Vec F S64x128 .i32) (acc : Vec F S1x128 .f32) :
    k0_pay33 v3 v4 ids acc = step v3 v4 ids acc := shapeCast_self _ _
theorem pay34_eq (v3 : IVec S1x1x128 32) (v4 : FVec F S1x64 .f32) (ids : Vec F S64x128 .i32) (acc : Vec F S1x128 .f32) :
    k0_pay34 v3 v4 ids acc = step v3 v4 ids acc := shapeCast_self _ _
theorem pay35_eq (v3 : IVec S1x1x128 32) (v4 : FVec F S1x64 .f32) (ids : Vec F S64x128 .i32) (acc : Vec F S1x128 .f32) :
    k0_pay35 v3 v4 ids acc = step v3 v4 ids acc := shapeCast_self _ _
theorem pay38_eq (v3 : IVec S1x1x128 32) (v4 : FVec F S1x64 .f32) (ids : Vec F S64x128 .i32) (acc : Vec F S1x128 .f32) :
    k0_pay38 v3 v4 ids acc = step v3 v4 ids acc := shapeCast_self _ _
theorem pay41_eq (v3 : IVec S1x1x128 32) (v4 : FVec F S1x64 .f32) (ids : Vec F S64x128 .i32) (acc : Vec F S1x128 .f32) :
    k0_pay41 v3 v4 ids acc = step v3 v4 ids acc := shapeCast_self _ _
theorem pay44_eq (v3 : IVec S1x1x128 32) (v4 : FVec F S1x64 .f32) (ids : Vec F S64x128 .i32) (acc : Vec F S1x128 .f32) :
    k0_pay44 v3 v4 ids acc = step v3 v4 ids acc := shapeCast_self _ _
theorem pay8_eq (v3 : IVec S1x1x128 32) (v4 : FVec F S1x64 .f32) (ids : Vec F S64x128 .i32) (acc : Vec F S1x128 .f32) :
    k0_pay8 v3 v4 ids acc = step v3 v4 ids acc := rfl
theorem pay25_eq (v3 : IVec S1x1x128 32) (v4 : FVec F S1x64 .f32) (ids : Vec F S64x128 .i32) (acc : Vec F S1x128 .f32) :
    k0_pay25 v3 v4 ids acc = step v3 v4 ids acc := rfl
theorem pay28_eq (v3 : IVec S1x1x128 32) (v4 : FVec F S1x64 .f32) (ids : Vec F S64x128 .i32) (acc : Vec F S1x128 .f32) :
    k0_pay28 v3 v4 ids acc = step v3 v4 ids acc := rfl
theorem pay45_eq (v3 : IVec S1x1x128 32) (v4 : FVec F S1x64 .f32) (ids : Vec F S64x128 .i32) (acc : Vec F S1x128 .f32) :
    k0_pay45 v3 v4 ids acc = step v3 v4 ids acc := rfl
theorem pay17_16_eq (v3 : IVec S1x1x128 32) (v4 : FVec F S1x64 .f32) (ids : Vec F S64x128 .i32) (acc : Vec F S1x128 .f32) :
    k0_pay17 v3 v4 (k0_pay16 ids) acc = step v3 v4 ids acc := shapeCast_self _ _
theorem pay37_36_eq (v3 : IVec S1x1x128 32) (v4 : FVec F S1x64 .f32) (ids : Vec F S64x128 .i32) (acc : Vec F S1x128 .f32) :
    k0_pay37 v3 v4 (k0_pay36 ids) acc = step v3 v4 ids acc := shapeCast_self _ _
theorem pay20_19_eq (v3 : IVec S1x1x128 32) (v4 : FVec F S1x64 .f32) (ids : Vec F S64x128 .i32) (acc : Vec F S1x128 .f32) :
    k0_pay20 v4 (k0_pay19 v3 ids) acc = step v3 v4 ids acc := shapeCast_self _ _
theorem pay40_39_eq (v3 : IVec S1x1x128 32) (v4 : FVec F S1x64 .f32) (ids : Vec F S64x128 .i32) (acc : Vec F S1x128 .f32) :
    k0_pay40 v4 (k0_pay39 v3 ids) acc = step v3 v4 ids acc := shapeCast_self _ _
theorem pay23_22_eq (v3 : IVec S1x1x128 32) (v4 : FVec F S1x64 .f32) (ids : Vec F S64x128 .i32) (acc : Vec F S1x128 .f32) :
    k0_pay23 (k0_pay22 v3 v4 ids) acc = step v3 v4 ids acc := shapeCast_self _ _
theorem pay43_42_eq (v3 : IVec S1x1x128 32) (v4 : FVec F S1x64 .f32) (ids : Vec F S64x128 .i32) (acc : Vec F S1x128 .f32) :
    k0_pay43 (k0_pay42 v3 v4 ids) acc = step v3 v4 ids acc := shapeCast_self _ _

/-! ## What each case of the body leaves -/

set_option backward.isDefEq.respectTransparency.types false in
/-- At the first point the scratch ends at the 32 chunks' counts over the zero row. -/
theorem scratch_A (c : Dev nD) (i : grid0.Coords) (arg1 : Memref sig .tc .vmem S2048x128 .i32) (harg1 : arg1.IsWhole) (arg2 : Memref sig .tc .vmem S1x128 .f32) (harg2 : arg2.IsWhole) (arg3 : Memref sig .tc .vmem S1x128 .f32) (harg3 : arg3.IsWhole) (hc0 : cond0_0 i) (hc1 : ¬cond0_1 i) (x0 : Vec F S2048x128 .i32) :
    sout0_A_0 c i arg1 harg1 arg2 harg2 arg3 harg3 hc0 hc1 x0 = accFrom x0 zeroRow 32 := by
  unfold sout0_A_0
  rw [View.read_writes_eq_canon _ _ _ (scover0_A_0 c i arg1 harg1 arg2 harg2 arg3 harg3 hc0 hc1 x0)]
  unfold kernelRun0_A; dsimp only
  rw [View.canon_cons_unit_zero (S := S1x128) off_zero]
  sl_unfold_words
  simp only [↓View.readCov_cons_toLoadRect, View.readAt_eq_ld, Memref.IsWhole.read_unread,
    View.ld_unit_zero (S := S1x128) off_zero, ld_rows, lanes_eq, pay1_eq, pay6_eq, pay9_eq, pay26_eq, pay29_eq, pay2_eq, pay3_eq, pay4_eq, pay5_eq, pay7_eq, pay10_eq, pay11_eq, pay12_eq, pay13_eq, pay14_eq, pay15_eq, pay18_eq, pay21_eq, pay24_eq, pay27_eq, pay30_eq, pay31_eq, pay32_eq, pay33_eq, pay34_eq, pay35_eq, pay38_eq, pay41_eq, pay44_eq, pay8_eq, pay25_eq, pay28_eq, pay45_eq, pay17_16_eq, pay37_36_eq, pay20_19_eq, pay40_39_eq, pay23_22_eq, pay43_42_eq]
  simp only [accFrom, Nat.reduceMul, lanes]

set_option backward.isDefEq.respectTransparency.types false in
/-- At a middle point the scratch ends at the 32 chunks' counts over what it held. -/
theorem scratch_B (c : Dev nD) (i : grid0.Coords) (arg1 : Memref sig .tc .vmem S2048x128 .i32) (harg1 : arg1.IsWhole) (arg2 : Memref sig .tc .vmem S1x128 .f32) (harg2 : arg2.IsWhole) (arg3 : Memref sig .tc .vmem S1x128 .f32) (harg3 : arg3.IsWhole) (hc0 : ¬cond0_0 i) (hc1 : ¬cond0_1 i) (x0 : Vec F S2048x128 .i32) (xs0 : Vec F S1x128 .f32) :
    sout0_B_0 c i arg1 harg1 arg2 harg2 arg3 harg3 hc0 hc1 x0 xs0 = accFrom x0 xs0 32 := by
  unfold sout0_B_0
  rw [View.read_writes_eq_canon _ _ _ (scover0_B_0 c i arg1 harg1 arg2 harg2 arg3 harg3 hc0 hc1 x0 xs0)]
  unfold kernelRun0_B; dsimp only
  rw [View.canon_cons_unit_zero (S := S1x128) off_zero]
  sl_unfold_words
  simp only [↓View.readCov_cons_toLoadRect, View.readAt_eq_ld, Memref.IsWhole.read_unread,
    View.ld_unit_zero (S := S1x128) off_zero, ld_rows, lanes_eq, pay1_eq, pay6_eq, pay9_eq, pay26_eq, pay29_eq, pay2_eq, pay3_eq, pay4_eq, pay5_eq, pay7_eq, pay10_eq, pay11_eq, pay12_eq, pay13_eq, pay14_eq, pay15_eq, pay18_eq, pay21_eq, pay24_eq, pay27_eq, pay30_eq, pay31_eq, pay32_eq, pay33_eq, pay34_eq, pay35_eq, pay38_eq, pay41_eq, pay44_eq, pay8_eq, pay25_eq, pay28_eq, pay45_eq, pay17_16_eq, pay37_36_eq, pay20_19_eq, pay40_39_eq, pay23_22_eq, pay43_42_eq]
  simp only [accFrom, Nat.reduceMul, lanes]

set_option backward.isDefEq.respectTransparency.types false in
/-- At the last point likewise, -/
theorem scratch_C (c : Dev nD) (i : grid0.Coords) (arg1 : Memref sig .tc .vmem S2048x128 .i32) (harg1 : arg1.IsWhole) (arg2 : Memref sig .tc .vmem S1x128 .f32) (harg2 : arg2.IsWhole) (arg3 : Memref sig .tc .vmem S1x128 .f32) (harg3 : arg3.IsWhole) (hc0 : ¬cond0_0 i) (hc1 : cond0_1 i) (x0 : Vec F S2048x128 .i32) (xs0 : Vec F S1x128 .f32) :
    sout0_C_0 c i arg1 harg1 arg2 harg2 arg3 harg3 hc0 hc1 x0 xs0 = accFrom x0 xs0 32 := by
  unfold sout0_C_0
  rw [View.read_writes_eq_canon _ _ _ (scover0_C_0 c i arg1 harg1 arg2 harg2 arg3 harg3 hc0 hc1 x0 xs0)]
  unfold kernelRun0_C; dsimp only
  unfold kernelRun0_C.sl.HS0_32
  rw [View.canon_cons_unit_zero (S := S1x128) off_zero]
  sl_unfold_words
  simp only [↓View.readCov_cons_toLoadRect, View.readAt_eq_ld, Memref.IsWhole.read_unread,
    View.ld_unit_zero (S := S1x128) off_zero, ld_rows, lanes_eq, pay1_eq, pay6_eq, pay9_eq, pay26_eq, pay29_eq, pay2_eq, pay3_eq, pay4_eq, pay5_eq, pay7_eq, pay10_eq, pay11_eq, pay12_eq, pay13_eq, pay14_eq, pay15_eq, pay18_eq, pay21_eq, pay24_eq, pay27_eq, pay30_eq, pay31_eq, pay32_eq, pay33_eq, pay34_eq, pay35_eq, pay38_eq, pay41_eq, pay44_eq, pay8_eq, pay25_eq, pay28_eq, pay45_eq, pay17_16_eq, pay37_36_eq, pay20_19_eq, pay40_39_eq, pay23_22_eq, pay43_42_eq]
  simp only [accFrom, Nat.reduceMul, lanes]

set_option backward.isDefEq.respectTransparency.types false in
/-- and the output block is a copy of the scratch. -/
theorem out_C (c : Dev nD) (i : grid0.Coords) (arg1 : Memref sig .tc .vmem S2048x128 .i32) (harg1 : arg1.IsWhole) (arg2 : Memref sig .tc .vmem S1x128 .f32) (harg2 : arg2.IsWhole) (arg3 : Memref sig .tc .vmem S1x128 .f32) (harg3 : arg3.IsWhole) (hc0 : ¬cond0_0 i) (hc1 : cond0_1 i) (x0 : Vec F S2048x128 .i32) (xs0 : Vec F S1x128 .f32) :
    out0_C_1 c i arg1 harg1 arg2 harg2 arg3 harg3 hc0 hc1 x0 xs0 = accFrom x0 xs0 32 := by
  unfold out0_C_1
  rw [View.read_writes_eq_canon _ _ _ (cover0_C_1 c i arg1 harg1 arg2 harg2 arg3 harg3 hc0 hc1 x0 xs0)]
  unfold kernelRun0_C; dsimp only
  rw [View.canon_cons_unit_zero (S := S1x128) off_zero]
  sl_unfold_words
  simp only [↓View.readCov_cons_toLoadRect, View.readAt_eq_ld, Memref.IsWhole.read_unread,
    View.ld_unit_zero (S := S1x128) off_zero, ld_rows, lanes_eq, pay1_eq, pay6_eq, pay9_eq, pay26_eq, pay29_eq, pay2_eq, pay3_eq, pay4_eq, pay5_eq, pay7_eq, pay10_eq, pay11_eq, pay12_eq, pay13_eq, pay14_eq, pay15_eq, pay18_eq, pay21_eq, pay24_eq, pay27_eq, pay30_eq, pay31_eq, pay32_eq, pay33_eq, pay34_eq, pay35_eq, pay38_eq, pay41_eq, pay44_eq, pay8_eq, pay25_eq, pay28_eq, pay45_eq, pay17_16_eq, pay37_36_eq, pay20_19_eq, pay40_39_eq, pay23_22_eq, pay43_42_eq]
  simp only [accFrom, Nat.reduceMul, lanes]

end Cert.KernelIdeal.Hist

end
-- ==== Proof.Points.lean ====
/-
  The running counts point by point, and what the region leaves in its output.

  The 65,536 × 128 array of ids is walked in 32 blocks of 2048 rows. After point n the scratch row holds, at
  entry e, the number of ids equal to e in the rows below 2048 · (n + 1): the first point starts from the zero
  row, every later one from what the point before left, and one point adds the count of its own block's 2048
  rows (`accFrom_apply`: 32 chunks of 64 rows). The last point copies the scratch to the output block, the only
  block of the 1 × 128 output, written back there and nowhere else; so the output array ends at the count over
  all 65,536 rows.
-/
import proofs.«404693_j60936995996121_3_alg».proof.Proof.Pieces

set_option maxRecDepth 16384

noncomputable section

namespace Cert.KernelIdeal.Hist

open Idealize.ShloMosaic Idealize.ShloMosaic.ValueIdx Idealize.ShloMosaic.Pipeline
open Cert.KernelIdeal Cert.KernelIdeal.Gen Cert.Hist

/-- Row `r` of a 2048-row block as a family over ℕ (the row number read modulo 2048). -/
def blkRow (x : Vec Ideal S2048x128 .i32) (r : ℕ) (l : Fin 128) : BitVec 32 :=
  x (ix2 (⟨r % 2048, Nat.mod_lt _ (by decide)⟩ : Fin 2048) l)

/-- Row `r` of the 65,536-row array as a family over ℕ (the row number read modulo 65536). -/
def arrRow (X : Vec Ideal S65536x128 .i32) (r : ℕ) (l : Fin 128) : BitVec 32 :=
  X (ix2 (⟨r % 65536, Nat.mod_lt _ (by decide)⟩ : Fin 65536) l)

/-- After k chunks the running count at e has grown by the count of e in the block's first 64 · k rows. -/
theorem accFrom_apply (x : Vec Ideal S2048x128 .i32) (a : Vec Ideal S1x128 .f32) (k : ℕ) (e : Fin 128) :
    accFrom (F := Ideal) x a k (ix2 (0 : Fin 1) e)
      = a (ix2 (0 : Fin 1) e) + tally (blkRow x) (BitVec.ofNat 32 e.val) (64 * k) := by
  induction k with
  | zero =>
    show a _ = a _ + tally _ _ (64 * 0)
    rw [Nat.mul_zero, tally_zero, add_zero]
  | succ k ih =>
    show step (F := Ideal) lanes ones (rowsAt x (64 * k)) (accFrom x a k) (ix2 (0 : Fin 1) e) = _
    rw [step_apply, ih, Nat.mul_succ, tally_add, add_assoc]
    refine congrArg (a (ix2 (0 : Fin 1) e) + ·) (congrArg (tally (blkRow x) (BitVec.ofNat 32 e.val) (64 * k) + ·) ?_)
    unfold tally
    rw [← Fin.sum_univ_eq_sum_range (fun r => ∑ l : Fin 128, hit (blkRow x (64 * k + r) l) (BitVec.ofNat 32 e.val)) 64]
    exact Finset.sum_congr rfl fun r _ => Finset.sum_congr rfl fun l _ => rfl

variable (m : (ℓ : Loc nD τ sig) → Buf (Elt Ideal) ℓ)

/-- The id array as the region finds it. -/
abbrev idArr (c : Dev nD) : Vec Ideal S65536x128 .i32 := V m c main_v2

/-- Its block at point t. -/
abbrev idBlk (c : Dev nD) (t : Fin cfg0.N) : Vec Ideal S2048x128 .i32 := iblk m c 0 t

/-- The input window's block index at point t is (t, 0). -/
theorem in_index : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Row r of block t is row 2048 · t + r of the array. -/
theorem blk_row (c : Dev nD) (t : Fin cfg0.N) (r : ℕ) (hr : r < 2048) (l : Fin 128) :
    blkRow (idBlk m c t) r l = arrRow (idArr m c) (2048 * t.val + r) l := by
  have hN : t.val < 32 := lt_of_lt_of_eq t.isLt (show cfg0.N = 32 from N_0)
  unfold blkRow arrRow
  show iblk m c 0 t _ = V m c main_v2 _
  unfold iblk
  rw [View.read_apply]
  show V m c main_v2 _ = V m c main_v2 _
  refine congrArg (V m c main_v2) (funext fun a => Fin.ext ?_)
  match a with
  | ⟨0, _⟩ =>
    show win0_0.index t 0 * 2048 + 1 * (r % 2048) = (2048 * t.val + r) % 65536
    rw [(in_index t).1]; omega
  | ⟨1, _⟩ =>
    show win0_0.index t 1 * 128 + 1 * l.val = l.val
    rw [(in_index t).2]; omega

/-- The count of e in block t's 2048 rows is the count in rows 2048 · t … of the array. -/
theorem blk_tally (c : Dev nD) (t : Fin cfg0.N) (w : BitVec 32) :
    tally (blkRow (idBlk m c t)) w 2048 = tally (fun r => arrRow (idArr m c) (2048 * t.val + r)) w 2048 :=
  tally_congr w 2048 fun r hr l => blk_row m c t r hr l

/-- What a point adds: the running count over the rows below 2048 · t plus block t's is the count below 2048 · (t + 1). -/
theorem point_adds (c : Dev nD) (t : Fin cfg0.N) (a : Vec Ideal S1x128 .f32) (e : Fin 128)
    (ha : a (ix2 (0 : Fin 1) e) = tally (arrRow (idArr m c)) (BitVec.ofNat 32 e.val) (2048 * t.val)) :
    accFrom (F := Ideal) (idBlk m c t) a 32 (ix2 (0 : Fin 1) e)
      = tally (arrRow (idArr m c)) (BitVec.ofNat 32 e.val) (2048 * (t.val + 1)) := by
  rw [accFrom_apply, ha, show 64 * 32 = 2048 from rfl, blk_tally, Nat.mul_succ, tally_add]

/-- The zero row reads zero. -/
theorem zeroRow_apply (j : S1x128.Idx) : zeroRow (F := Ideal) j = 0 := Ideal.ofBits_zero_f32

/-- THE SCRATCH AFTER POINT t: entry e is the number of ids equal to e in the rows below 2048 · (t + 1). -/
theorem scratch_after (c : Dev nD) (e : Fin 128) : ∀ (n : ℕ) (t : Fin cfg0.N), t.val = n →
    (outsAt0 m c t.val t.isLt).2 (ix2 (0 : Fin 1) e)
      = tally (arrRow (idArr m c)) (BitVec.ofNat 32 e.val) (2048 * (t.val + 1)) := by
  intro n
  induction n with
  | zero =>
    intro t ht
    have h0 : t.val % 32 = 0 := by omega
    have h1 : ¬t.val % 32 = 31 := by omega
    rw [outsAt0_A m c t h0 h1]
    dsimp only
    refine (congrFun (scratch_A (F := Ideal) c (grid0.coords t) (ms0_0 t) (hs0_0 t) (ms0_1 t) (hs0_1 t) scM0_0
      (Memref.isWhole_whole _) ((hcond0_0 t).mpr h0) (fun h => h1 ((hcond0_1 t).mp h)) (iblk m c 0 t)) (ix2 (0 : Fin 1) e)).trans ?_
    have hz : (zeroRow (F := Ideal)) (ix2 (0 : Fin 1) e)
        = tally (arrRow (idArr m c)) (BitVec.ofNat 32 e.val) (2048 * t.val) := by
      rw [zeroRow_apply, ht, Nat.mul_zero, tally_zero]
    exact point_adds m c t (zeroRow (F := Ideal)) e hz
  | succ n ih =>
    intro t ht
    have hN : t.val < 32 := lt_of_lt_of_eq t.isLt (show cfg0.N = 32 from N_0)
    have h0 : ¬t.val % 32 = 0 := by omega
    have hlt : t.val - 1 < cfg0.N := Nat.lt_of_le_of_lt (Nat.sub_le _ _) t.isLt
    have hp : (outsAt0 m c (t.val - 1) hlt).2 (ix2 (0 : Fin 1) e)
        = tally (arrRow (idArr m c)) (BitVec.ofNat 32 e.val) (2048 * t.val) := by
      have h := ih ⟨t.val - 1, hlt⟩ (by show t.val - 1 = n; omega)
      have e1 : t.val - 1 + 1 = t.val := by omega
      exact h.trans (by show tally _ _ (2048 * (t.val - 1 + 1)) = _; rw [e1])
    by_cases h1 : t.val % 32 = 31
    · rw [outsAt0_C m c t h0 h1]
      dsimp only
      refine (congrFun (scratch_C (F := Ideal) c (grid0.coords t) (ms0_0 t) (hs0_0 t) (ms0_1 t) (hs0_1 t) scM0_0
        (Memref.isWhole_whole _) (fun h => h0 ((hcond0_0 t).mp h)) ((hcond0_1 t).mpr h1) (iblk m c 0 t)
        (outsAt0 m c (t.val - 1) hlt).2) (ix2 (0 : Fin 1) e)).trans ?_
      exact point_adds m c t (outsAt0 m c (t.val - 1) hlt).2 e hp
    · rw [outsAt0_B m c t h0 h1]
      dsimp only
      refine (congrFun (scratch_B (F := Ideal) c (grid0.coords t) (ms0_0 t) (hs0_0 t) (ms0_1 t) (hs0_1 t) scM0_0
        (Memref.isWhole_whole _) (fun h => h0 ((hcond0_0 t).mp h)) (fun h => h1 ((hcond0_1 t).mp h)) (iblk m c 0 t)
        (outsAt0 m c (t.val - 1) hlt).2) (ix2 (0 : Fin 1) e)).trans ?_
      exact point_adds m c t (outsAt0 m c (t.val - 1) hlt).2 e hp

/-- THE OUTPUT BLOCK AT THE LAST POINT: entry e is the number of ids equal to e in all 65,536 rows. -/
theorem out_last (c : Dev nD) (e : Fin 128) (t : Fin cfg0.N) (ht : t.val % 32 = 31) :
    (outsAt0 m c t.val t.isLt).1 (ix2 (0 : Fin 1) e) = tally (arrRow (idArr m c)) (BitVec.ofNat 32 e.val) 65536 := by
  have hN : t.val < 32 := lt_of_lt_of_eq t.isLt (show cfg0.N = 32 from N_0)
  have h31 : t.val = 31 := by omega
  have h0 : ¬t.val % 32 = 0 := by omega
  have hlt : t.val - 1 < cfg0.N := Nat.lt_of_le_of_lt (Nat.sub_le _ _) t.isLt
  have hp : (outsAt0 m c (t.val - 1) hlt).2 (ix2 (0 : Fin 1) e)
      = tally (arrRow (idArr m c)) (BitVec.ofNat 32 e.val) (2048 * t.val) := by
    have h := scratch_after m c e (t.val - 1) ⟨t.val - 1, hlt⟩ rfl
    have e1 : t.val - 1 + 1 = t.val := by omega
    exact h.trans (by show tally _ _ (2048 * (t.val - 1 + 1)) = _; rw [e1])
  rw [outsAt0_C m c t h0 ht]
  dsimp only
  refine (congrFun (out_C (F := Ideal) c (grid0.coords t) (ms0_0 t) (hs0_0 t) (ms0_1 t) (hs0_1 t) scM0_0
    (Memref.isWhole_whole _) (fun h => h0 ((hcond0_0 t).mp h)) ((hcond0_1 t).mpr ht) (iblk m c 0 t)
    (outsAt0 m c (t.val - 1) hlt).2) (ix2 (0 : Fin 1) e)).trans ?_
  rw [point_adds m c t (outsAt0 m c (t.val - 1) hlt).2 e hp, h31]

end Cert.KernelIdeal.Hist

end
-- ==== Proof.Value.lean ====
/-
  The kernel program's three results as functions of its two arguments, at the ideal values.

  Around the histogram region the program only reshapes: before it, the scores to a flat vector and the ids to a
  flat vector and then to 65,536 rows of 128; after it, the first 64 entries of the region's 1 × 128 output are the
  histogram, the flat ids are sorted stably with their positions (the positions are the second result), and the flat
  scores are gathered at those positions (the first result). The region's output array is its one block, written
  back at the last grid point: the count of every expert over all rows (Points.lean).
-/
import proofs.«404693_j60936995996121_3_alg».proof.Proof.Points
import Idealize.ShloMosaic.Lib.StableHlo.Run

set_option maxRecDepth 16384

noncomputable section

namespace Cert.KernelIdeal.Hist

open Idealize.ShloMosaic Idealize.ShloMosaic.ValueIdx Idealize.ShloMosaic.Pipeline Idealize.ShloMosaic.StableHlo
open Idealize.ShloMosaic.TcCoe Idealize.SL.Sem
open Cert.KernelIdeal Cert.KernelIdeal.Gen Cert.KernelIdeal.Facts₀ Cert.Hist

/-- The positions of the flat ids in stable ascending order of the ids. -/
def sortOf (x1 : S4194304x2.Idx → BitVec 32) : IVec S8388608 32 :=
  (Host.sort2 S8388608 0 comparator_i32_i32_d0 (shapeCast S8388608 x1 Facts₀.shapeCasts_S4194304x2_S8388608)
    (iotaInDim S8388608 32 0)).2

/-- The flat scores gathered at positions `s` (a negative position counted from the end, as jnp indexing does). -/
def gatherOf (x0 : S4194304x2.Idx → Ideal .f32) (s : IVec S8388608 32) : FVec Ideal S8388608 .f32 :=
  Host.gather gather_S8388608_S8388608x1_S8388608_n_0_n_n_0_1_1
    (shapeCast S8388608 x0 Facts₀.shapeCasts_S4194304x2_S8388608)
    (broadcastInDim S8388608x1 ![0] Facts₀.bcast_S8388608_S8388608x1_0
      (select (cmpi .slt s (broadcastInDim S8388608 ![] Facts₀.bcast_S_S8388608 (constantI S_ 32 0#32)))
        (addi s (broadcastInDim S8388608 ![] Facts₀.bcast_S_S8388608 (constantI S_ 32 8388608#32))) s))

variable (m : (ℓ : Loc nD τ sig) → Buf (Elt Ideal) ℓ) (ρ : Dev nD → PrngReg)

/-! ## The arrays the region finds -/

theorem V_v0 (c : Dev nD) :
    V m c main_v0 = shapeCast S8388608 (m ((c : Thread nD τ).loc main_arg0)) Facts₀.shapeCasts_S4194304x2_S8388608 := by
  dsimp only [V, V0]
  simp only [hostOps0, List.flatten_cons, List.flatten_nil, List.append_nil, List.cons_append, List.nil_append]
  after_results
  rfl

theorem V_v1 (c : Dev nD) :
    V m c main_v1 = shapeCast S8388608 (m ((c : Thread nD τ).loc main_arg1)) Facts₀.shapeCasts_S4194304x2_S8388608 := by
  dsimp only [V, V0]
  simp only [hostOps0, List.flatten_cons, List.flatten_nil, List.append_nil, List.cons_append, List.nil_append]
  after_results
  rfl

theorem V_v2 (c : Dev nD) :
    V m c main_v2 = shapeCast S65536x128
      (shapeCast S8388608 (m ((c : Thread nD τ).loc main_arg1)) Facts₀.shapeCasts_S4194304x2_S8388608)
      Facts₀.shapeCasts_S8388608_S65536x128 := by
  dsimp only [V, V0]
  simp only [hostOps0, List.flatten_cons, List.flatten_nil, List.append_nil, List.cons_append, List.nil_append]
  after_results
  rfl

/-- After the region a buffer that is no array of the pipeline holds what the region found. -/
theorem kept (c : Dev nD) (b : Ref sig .tc) (hb : ∀ w, Pipeline.arrRef spec0 w ≠ b) :
    Pipeline.withArrays (cfgs 0).spec c (V0 m c) (fun w => (dats m 0 c).arrAt w (cfgs 0).N) (Proc.devRef .tc b) = V m c b :=
  Pipeline.withArrays_of_ne _ c (V0 m c) _ b hb

/-! ## The region's output array -/

/-- The output window's block index is (0, 0) at every point. -/
theorem out_index : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem last_lt : 31 < cfg0.N := lt_of_lt_of_eq (by decide : 31 < 32) (show cfg0.N = 32 from N_0).symm

/-- What the last point leaves in the output block. -/
def histRow (c : Dev nD) : Vec Ideal S1x128 .f32 := (outsAt0 m c 31 last_lt).1

/-- The one point that writes the output back writes that row. -/
theorem flushed_eq (c : Dev nD) (t : Fin cfg0.N) (hf : (cfg0.win 1).flush t = true) :
    (dats m 0 c).flushed 1 t = ((cfg0.win 1).blk t).view.read (Elt Ideal) (histRow m c) := by
  have h31 : t.val % 32 = 31 := (flush0_1 t).mp hf
  have hN : t.val < 32 := lt_of_lt_of_eq t.isLt (show cfg0.N = 32 from N_0)
  obtain rfl : t = ⟨31, last_lt⟩ := Fin.ext (by show t.val = 31; omega)
  show (cfg0.win 1).cut (grid0.coords ⟨31, last_lt⟩) ((dats m 0 c).after 1 ⟨31, last_lt⟩) = _
  rw [after0_1]
  funext j
  show (outsAt0 m c 31 last_lt).1 j = histRow m c (((cfg0.win 1).blk ⟨31, last_lt⟩).view.emb j)
  unfold histRow
  refine congrArg (outsAt0 m c 31 last_lt).1 (funext fun a => Fin.ext ?_)
  obtain ⟨e0, e1⟩ := out_index ⟨31, last_lt⟩
  match a with
  | ⟨0, _⟩ =>
    show (j 0).val = win0_1.index ⟨31, last_lt⟩ 0 * 1 + 1 * (j 0).val
    rw [e0]; omega
  | ⟨1, _⟩ =>
    show (j 1).val = win0_1.index ⟨31, last_lt⟩ 1 * 128 + 1 * (j 1).val
    rw [e1]; omega

/-- An index of the output array is in a point's block iff each coordinate is in the block's range. -/
theorem mem_blk (t : Fin cfg0.N) (i : S1x128.Idx) :
    i ∈ ((cfg0.win 1).blk t).view.set ↔ ∀ a : Fin 2, win0_1.index t a * S1x128.size a ≤ (i a).val
      ∧ (i a).val < win0_1.index t a * S1x128.size a + S1x128.size a := by
  show i ∈ ((View.whole main_v3).slice (win0_1.rect t)).set ↔ _
  rw [View.set_slice_whole, Rect.mem_set_unit]
  exact Iff.rfl

/-- THE OUTPUT ARRAY after the region: the row the last point left. -/
theorem hist_arr (c : Dev nD) : (dats m 0 c).arrAt 1 cfg0.N = histRow m c :=
  (dats m 0 c).arrAt_eq_of_cover 1 (histRow m c) (fun t hf => flushed_eq m c t hf) fun i => by
    refine ⟨⟨31, last_lt⟩, (flush0_1 _).mpr rfl, ?_⟩
    rw [mem_blk]
    obtain ⟨e0, e1⟩ := out_index ⟨31, last_lt⟩
    have h0 : (i 0).val < 1 := (i 0).isLt
    have h1 : (i 1).val < 128 := (i 1).isLt
    intro a
    match a with
    | ⟨0, _⟩ =>
      show win0_1.index ⟨31, last_lt⟩ 0 * 1 ≤ (i 0).val ∧ (i 0).val < win0_1.index ⟨31, last_lt⟩ 0 * 1 + 1
      rw [e0]; omega
    | ⟨1, _⟩ =>
      show win0_1.index ⟨31, last_lt⟩ 1 * 128 ≤ (i 1).val ∧ (i 1).val < win0_1.index ⟨31, last_lt⟩ 1 * 128 + 128
      rw [e1]; omega

/-! ## The lines after the region -/

/-- The histogram result: the first 64 entries of the region's row. -/
theorem tail_v5 (c : Dev nD) :
    Pipeline.afterTail₀ cfgs (dats m) 0 (V0 m) [hostOps1, hostOps1_1, hostOps1_2] c main_v5
      = shapeCast S64 (extractStridedSlice S1x64 ![0, 0] (histRow m c) Facts₀.slices_S1x128_S1x64_0_0)
          Facts₀.shapeCasts_S1x64_S64 := by
  unfold Pipeline.afterTail₀
  simp only [hostOps1, hostOps1_1, hostOps1_2, List.flatten_cons, List.flatten_nil, List.append_nil, List.cons_append, List.nil_append]
  after_results
  rw [show Pipeline.withArrays (cfgs 0).spec c (V0 m c) (fun w => (dats m 0 c).arrAt w (cfgs 0).N)
      (Proc.devRef .tc main_v3) = histRow m c from
    (Pipeline.withArrays_arr spec0 launch0.win.arr_inj c _ _ 1).trans (hist_arr m c)]
  rfl

/-- The sorted positions. -/
theorem tail_v6 (c : Dev nD) :
    Pipeline.afterTail₀ cfgs (dats m) 0 (V0 m) [hostOps1, hostOps1_1, hostOps1_2] c main_v6
      = sortOf (m ((c : Thread nD τ).loc main_arg1)) := by
  unfold Pipeline.afterTail₀
  simp only [hostOps1, hostOps1_1, hostOps1_2, List.flatten_cons, List.flatten_nil, List.append_nil, List.cons_append, List.nil_append]
  after_results
  dsimp only [TRef.of]
  rw [kept m c main_v1 (by decide), V_v1]
  rfl

/-- The gathered scores. -/
theorem tail_v13 (c : Dev nD) :
    Pipeline.afterTail₀ cfgs (dats m) 0 (V0 m) [hostOps1, hostOps1_1, hostOps1_2] c main_v13
      = gatherOf (m ((c : Thread nD τ).loc main_arg0)) (sortOf (m ((c : Thread nD τ).loc main_arg1))) := by
  unfold Pipeline.afterTail₀
  simp only [hostOps1, hostOps1_1, hostOps1_2, List.flatten_cons, List.flatten_nil, List.append_nil, List.cons_append, List.nil_append]
  after_results
  dsimp only [TRef.of]
  rw [kept m c main_v1 (by decide), V_v1, kept m c main_v0 (by decide), V_v0]
  rfl

/-! ## The run -/

/-- Every weakly fair execution of the kernel program ends with the three results at these functions of the
    arguments, and the arguments unchanged. -/
theorem run : θ_run defs (onTc (τ := τ) (main (F := Ideal))) ⟨m, fun _ => 0, ρ⟩ fun r => ∀ c : Dev nD,
      r.2.mem ((c.tc : Thread nD τ).loc main_v13)
        = gatherOf (m ((c : Thread nD τ).loc main_arg0)) (sortOf (m ((c : Thread nD τ).loc main_arg1)))
      ∧ r.2.mem ((c.tc : Thread nD τ).loc main_v6) = sortOf (m ((c : Thread nD τ).loc main_arg1))
      ∧ r.2.mem ((c.tc : Thread nD τ).loc main_v5)
        = shapeCast S64 (extractStridedSlice S1x64 ![0, 0] (histRow m c) Facts₀.slices_S1x128_S1x64_0_0)
            Facts₀.shapeCasts_S1x64_S64
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v13 (Pipeline.mem_restRefs_of main_v13 (by decide) (by decide))).trans (tail_v13 m c),
     ((h c).2 main_v6 (Pipeline.mem_restRefs_of main_v6 (by decide) (by decide))).trans (tail_v6 m c),
     ((h c).2 main_v5 (Pipeline.mem_restRefs_of main_v5 (by decide) (by decide))).trans (tail_v5 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hist

end
-- ==== Proof.Bridge.lean ====
/-
  The kernel's histogram entry as a count along the flat ids, and the two results both programs compute by the
  same host operations.

  The 65,536 × 128 array the region walks is the flat vector of 8,388,608 ids cut into rows of 128, and the
  flat vector is the (4194304, 2) argument read row by row: row r, lane l of the array is flat position
  128 · r + l. So the count over all rows (Points.lean) is the count along the flat ids (Spec.lean
  `tally_eq_count`), which is what the reference's scatter of ones computes.

  The sorted positions and the gathered scores are spelt by the same operations in both programs; the two
  spellings differ only in which program's shape and dimension-number records they name, and those records are
  equal field by field.
-/
import proofs.«404693_j60936995996121_3_alg».proof.Proof.Value
import proofs.«404693_j60936995996121_3_alg».proof.Proof.Gen.ReferenceIdeal.Read

set_option maxRecDepth 16384

noncomputable section

namespace Cert.KernelIdeal.Hist

open Idealize.ShloMosaic Idealize.ShloMosaic.ValueIdx
open Idealize.ShloMosaic.TcCoe Idealize.SL.Sem
open Cert.KernelIdeal Cert.KernelIdeal.Gen Cert.Hist

variable (m : (ℓ : Loc nD τ sig) → Buf (Elt Ideal) ℓ)

/-- Row r, lane l of the id array is the flat id at position 128 · r + l. -/
theorem arr_flat (c : Dev nD) (r : ℕ) (hr : r < 65536) (l : Fin 128) :
    arrRow (idArr m c) r l = flat (m ((c : Thread nD τ).loc main_arg1)) (128 * r + l.val) := by
  have hl : l.val < 128 := l.isLt
  unfold arrRow flat
  show V m c main_v2 _ = _
  rw [V_v2]
  refine (shapeCast_apply _ Facts₀.shapeCasts_S8388608_S65536x128
    (ix2 (⟨r % 65536, Nat.mod_lt _ (by decide)⟩ : Fin 65536) l)
    (ix1 (⟨128 * r + l.val, by omega⟩ : Fin 8388608)) ?_).trans ?_
  · rw [Shape.rowMajor_val_one, Shape.rowMajor_val_two]
    show 128 * r + l.val = r % 65536 * 128 + l.val
    omega
  refine (shapeCast_apply _ Facts₀.shapeCasts_S4194304x2_S8388608
    (ix1 (⟨128 * r + l.val, by omega⟩ : Fin 8388608))
    (ix2 (⟨(128 * r + l.val) / 2 % 4194304, Nat.mod_lt _ (by decide)⟩ : Fin 4194304)
      (⟨(128 * r + l.val) % 2, Nat.mod_lt _ (by decide)⟩ : Fin 2)) ?_).trans rfl
  rw [Shape.rowMajor_val_two, Shape.rowMajor_val_one]
  show (128 * r + l.val) / 2 % 4194304 * 2 + (128 * r + l.val) % 2 = 128 * r + l.val
  omega

/-- THE KERNEL'S HISTOGRAM: entry e of the third result is the number of flat ids equal to e. -/
theorem hist_count (c : Dev nD) (e : Fin 64) :
    shapeCast S64 (extractStridedSlice S1x64 ![0, 0] (histRow m c) Facts₀.slices_S1x128_S1x64_0_0)
        Facts₀.shapeCasts_S1x64_S64 (ix1 e)
      = count (flat (m ((c : Thread nD τ).loc main_arg1))) (BitVec.ofNat 32 e.val) 8388608 := by
  have he : e.val < 64 := e.isLt
  refine (shapeCast_apply _ Facts₀.shapeCasts_S1x64_S64 (ix1 e) (ix2 (0 : Fin 1) e) ?_).trans ?_
  · rw [Shape.rowMajor_val_two, Shape.rowMajor_val_one]
    show 0 * 64 + e.val = e.val
    omega
  refine (extractStridedSlice_apply ![0, 0] _ Facts₀.slices_S1x128_S1x64_0_0 (ix2 (0 : Fin 1) e)
    (ix2 (0 : Fin 1) (⟨e.val, by omega⟩ : Fin 128)) (fun a => ?_)).trans ?_
  · match a with
    | ⟨0, _⟩ => rfl
    | ⟨1, _⟩ => show e.val = 0 + e.val; omega
  unfold histRow
  rw [out_last m c (⟨e.val, by omega⟩ : Fin 128) ⟨31, last_lt⟩ rfl,
    tally_congr _ 65536 (fun r hr l => arr_flat m c r hr l), tally_eq_count]

/-- The sorted positions, in the reference's spelling. -/
theorem sort_eq (x1 : S4194304x2.Idx → BitVec 32) :
    sortOf x1 = Cert.ReferenceIdeal.Read.val_main_v5 (F := Ideal) x1 := rfl

/-- The gathered scores, in the reference's spelling. -/
theorem gather_eq (x0 : S4194304x2.Idx → Ideal .f32) (x1 : S4194304x2.Idx → BitVec 32) :
    gatherOf x0 (sortOf x1) = Cert.ReferenceIdeal.Read.val_main_v13 (F := Ideal) x0 x1 := rfl

end Cert.KernelIdeal.Hist

end
-- ==== Proof.RefHist.lean ====
/-
  The reference's histogram, entry by entry. The reference adds a one into a zero vector of 64 at the position each
  of the 8,388,608 flattened ids names (an accumulating scatter whose indices are the ids as a column). Read at
  entry e < 64 this is the number of flat positions whose id is the word e: an update lands on entry e exactly when
  its id, read as a signed integer, is e, and an id outside [0, 64) lands nowhere.
-/
import proofs.«404693_j60936995996121_3_alg».proof.Proof.Gen.ReferenceIdeal.Read
import proofs.«404693_j60936995996121_3_alg».proof.Proof.Spec
import Idealize.ShloMosaic.Lib.ValueIdx
import Idealize.ShloMosaic.Lib.IdealHost
import Idealize.ShloMosaic.PureOps.Ideal.Laws

noncomputable section
namespace Cert.ReferenceIdeal.RefValue
open Idealize.ShloMosaic Idealize.ShloMosaic.ValueIdx Cert.ReferenceIdeal Cert.ReferenceIdeal.Read Cert.Hist

namespace ScatterHist

/-! ## Sums over a rank-1 index set, and the accumulating scatter read at an element -/

/-- A rank-1 index set is its one coordinate's range. -/
def idxEquiv1 {n : Nat} : (⟨1, ![n]⟩ : Shape).Idx ≃ Fin n where
  toFun j := j 0
  invFun := ix1
  left_inv j := (eq_ix1 j).symm
  right_inv _ := rfl

/-- A sum over a rank-1 index set is the sum over the coordinate. -/
theorem sum_idx1 {M : Type*} [AddCommMonoid M] {n : Nat} (f : (⟨1, ![n]⟩ : Shape).Idx → M) :
    ∑ j, f j = ∑ p : Fin n, f (ix1 p) :=
  (Equiv.sum_comp (idxEquiv1 (n := n)).symm f).symm

/-- The accumulating scatter at the ideal values, read at an element: the operand's element plus the updates
    that land on it. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := rfl

/-- The same over a rank-1 array of updates, as a sum over the update positions: the update where it lands on
    the element, 0 where it does not. -/
theorem scatterAdd_apply1 {s si : Shape} {n : Nat} {φ : FTy} {w : Nat} (d : ScatterDims s si ⟨1, ![n]⟩)
    (x : FVec Ideal s φ) (idx : IVec si w) (upd : FVec Ideal ⟨1, ![n]⟩ φ) (i : s.Idx) :
    Host.scatterAdd d x idx upd i
      = x i + ∑ p : Fin n, if d.resultIdx? (ix1 p) idx = some i then upd (ix1 p) else 0 := by
  rw [scatterAdd_apply, Finset.sum_filter, sum_idx1]

/-! ## Where the update at position p lands

The dimension numbers: the operand's one axis is an inserted window axis and the axis the start index names; the
index vector runs along the second axis of the (8388608, 1) column. So the update at position p starts at the
signed reading of the column's entry (p, 0), its window coordinate is 0, and it lands on that entry's value when
the value is in [0, 64). -/

/-- The scatter's dimension numbers. -/
abbrev dims : ScatterDims S64 S8388608x1 S8388608 := scatter_S64_S8388608x1_S8388608_n_0_0_1

/-- The operand's one axis is named by the start-index map. -/
theorem mem_sdto (a : Fin 1) : a ∈ dims.scatterDimsToOperandDims := by
  show a ∈ [(0 : Fin 1)]
  exact List.mem_singleton.mpr (Subsingleton.elim _ _)

/-- The update at position p reads its start index at the column's entry (p, 0). -/
theorem siIdx_eq (p : Fin 8388608) (c : Fin dims.scatterDimsToOperandDims.length) :
    dims.siIdx (ix1 p) c = ix2 p (0 : Fin 1) := by
  funext b; refine Fin.ext ?_
  match b with
  | ⟨0, _⟩ => rfl
  | ⟨1, _⟩ =>
    have hc : c.val < 1 := c.isLt
    show c.val = 0
    omega

/-- Its start on the operand's axis is that entry read as a signed integer. -/
theorem start_eq (p : Fin 8388608) (idx : IVec S8388608x1 32) (a : Fin 1) :
    dims.start (ix1 p) idx a = (idx (ix2 p (0 : Fin 1))).toInt := by
  unfold ScatterDims.start
  rw [dif_pos (mem_sdto a), siIdx_eq]

/-- The operand's axis is inserted: the window coordinate on it is 0. -/
theorem window_eq (j : S8388608.Idx) (a : Fin 1) : dims.window j a = 0 := by
  obtain rfl : a = 0 := Subsingleton.elim _ _
  rfl

/-- A 32-bit word read as a signed integer is e < 64 exactly when it is the word e. -/
theorem toInt_eq_iff (w : BitVec 32) (e : Fin 64) : w.toInt = (e.val : ℤ) ↔ w = BitVec.ofNat 32 e.val := by
  have he : e.val < 64 := e.isLt
  have h2 : (BitVec.ofNat 32 e.val).toInt = (e.val : ℤ) := by
    rw [BitVec.toInt_ofNat']
    apply Int.bmod_eq_of_le
    · omega
    · omega
  rw [← h2]
  exact BitVec.toInt_inj

/-- The update at position p lands on entry e < 64 exactly when the column's entry (p, 0), read signed, is e:
    a value below 0 or from 64 on is outside the operand and the update is dropped. -/
theorem resultIdx_iff (p : Fin 8388608) (idx : IVec S8388608x1 32) (e : Fin 64) :
    dims.resultIdx? (ix1 p) idx = some (ix1 e) ↔ (idx (ix2 p (0 : Fin 1))).toInt = (e.val : ℤ) := by
  have he : e.val < 64 := e.isLt
  have hs : ∀ a : Fin 1,
      dims.start (ix1 p) idx a + (dims.window (ix1 p) a : ℤ) = (idx (ix2 p (0 : Fin 1))).toInt := by
    intro a; rw [start_eq, window_eq, Nat.cast_zero, add_zero]
  unfold ScatterDims.resultIdx?
  split
  · rename_i h
    rw [Option.some.injEq]
    constructor
    · intro heq
      have h0 : (dims.start (ix1 p) idx 0 + (dims.window (ix1 p) 0 : ℤ)).toNat = e.val :=
        congrArg (fun f => (f (0 : Fin 1)).val) heq
      have h1 := (h 0).1
      rw [hs 0] at h0 h1
      omega
    · intro hz
      funext a
      obtain rfl : a = 0 := Subsingleton.elim _ _
      refine Fin.ext ?_
      show (dims.start (ix1 p) idx 0 + (dims.window (ix1 p) 0 : ℤ)).toNat = e.val
      rw [hs 0, hz]
      omega
  · rename_i h
    constructor
    · intro heq; cases heq
    · intro hz
      exfalso
      apply h
      intro a
      obtain rfl : a = 0 := Subsingleton.elim _ _
      rw [hs 0, hz]
      refine ⟨by omega, ?_⟩
      show (e.val : ℤ) < ((64 : ℕ) : ℤ)
      omega

/-! ## The three operands read at an index -/

/-- The column of scatter indices at row p is the flattened id at position p: position p of the flattened array
    is row p / 2, column p % 2 of the (4194304, 2) array, and p / 2 is below 4194304. -/
theorem ids_eq (x1 : (⟨S4194304x2, .i32⟩ : BufTy).Contents (Elt Ideal)) (p : Fin 8388608) :
    val_main_v3 (F := Ideal) x1 (ix2 p (0 : Fin 1)) = flat x1 p.val := by
  have hp : p.val < 8388608 := p.isLt
  rw [val_main_v3_apply, val_main_v0_apply]
  unfold flat
  congr 1
  funext a
  refine Fin.ext ?_
  match a with
  | ⟨0, _⟩ =>
    show p.val / 2 = p.val / 2 % 4194304
    omega
  | ⟨1, _⟩ => rfl

/-- The zero vector reads 0 everywhere. -/
theorem zeros_eq (i : S64.Idx) : val_main_v2 (F := Ideal) i = 0 := by
  rw [val_main_v2_apply, val_main_cst_0_apply]
  exact Ideal.ofBits_zero_f32

/-- The ones vector reads 1 everywhere. -/
theorem ones_eq (j : S8388608.Idx) : val_main_v1 (F := Ideal) j = 1 := by
  rw [val_main_v1_apply, val_main_cst_apply]
  exact Ideal.ofBits_one_f32

end ScatterHist

open ScatterHist

/-- The reference's histogram entry e (e < 64) is the number of flattened ids equal to e. -/
theorem hist_eq (x1 : (⟨S4194304x2, .i32⟩ : BufTy).Contents (Elt Ideal)) (e : Fin 64) :
    val_main_v4 (F := Ideal) x1 (ix1 e) = count (flat x1) (BitVec.ofNat 32 e.val) 8388608 := by
  unfold val_main_v4 Cert.Hist.count
  -- entry e is 0 plus, over the positions p, the one at p where it lands on e; and a sum over the positions
  -- below 8388608 is the sum over the range
  refine ((scatterAdd_apply1 dims _ _ _ (ix1 e)).trans ?_).trans
    (Fin.sum_univ_eq_sum_range (fun j => hit (flat x1 j) (BitVec.ofNat 32 e.val)) 8388608)
  rw [zeros_eq, zero_add]
  refine Finset.sum_congr rfl fun p _ => ?_
  show _ = hit (flat x1 p.val) (BitVec.ofNat 32 e.val)
  rw [ones_eq]
  unfold hit
  -- the one at p lands on e exactly when the id at p is the word e
  refine if_congr ?_ rfl rfl
  rw [resultIdx_iff, toInt_eq_iff, ids_eq]

end Cert.ReferenceIdeal.RefValue
end
-- ==== Proof.lean ====
/-
  A token reorderer for expert routing: from (4194304, 2) scores and expert ids the program returns the scores
  in expert-sorted order, the sorting permutation of the 8,388,608 flattened slots, and the number of slots routed
  to each of 64 experts.

  The kernel program computes the third result on the chip: the flattened ids, laid out as 65,536 rows of 128, are
  walked in 32 blocks of 2048 rows; each block in 32 chunks of 64 rows, a chunk's ids compared with the expert
  numbers 0 … 127, the resulting zeros and ones summed over a row's lanes and then over the chunk's rows by a
  product with a row of ones, and added to a running row of 128 counts that is carried from block to block and
  copied out after the last; the first 64 counts are the result. The reference adds a one at position id for every
  flattened id (a scatter with addition into 64 zeros, ids outside 0 … 63 dropped). Over the extended reals both
  are, at expert e < 64, the sum over all flattened ids of 1 where the id is e and 0 elsewhere: sums of zeros and
  ones regroup freely, so no finiteness of the scores is used. The permutation and the sorted scores are computed by
  the same host operations (a stable sort of the ids with their positions, and a gather) in both programs.

  Chunk.lean reads one chunk's iteration at an index; Pieces.lean what one grid point leaves in the running counts;
  Points.lean the counts point by point and the region's output; Value.lean the kernel program's three results;
  RefHist.lean the reference's scatter; Bridge.lean joins the two.
-/
import proofs.«404693_j60936995996121_3_alg».proof.Defs
import proofs.«404693_j60936995996121_3_alg».proof.Proof.Gen.Kernel
import proofs.«404693_j60936995996121_3_alg».proof.Proof.Gen.Kernel.Skeleton
import proofs.«404693_j60936995996121_3_alg».proof.Proof.Gen.Kernel.Launch
import proofs.«404693_j60936995996121_3_alg».proof.Proof.Gen.Kernel.Points
import proofs.«404693_j60936995996121_3_alg».proof.Proof.Gen.Kernel.Frame
import proofs.«404693_j60936995996121_3_alg».proof.Proof.Gen.KernelIdeal
import proofs.«404693_j60936995996121_3_alg».proof.Proof.Gen.KernelIdeal.Skeleton
import proofs.«404693_j60936995996121_3_alg».proof.Proof.Gen.KernelIdeal.Launch
import proofs.«404693_j60936995996121_3_alg».proof.Proof.Gen.KernelIdeal.Points
import proofs.«404693_j60936995996121_3_alg».proof.Proof.Gen.KernelIdeal.Frame
import proofs.«404693_j60936995996121_3_alg».proof.Proof.Gen.ReferenceIdeal
import proofs.«404693_j60936995996121_3_alg».proof.Proof.Gen.Pre_finite_inputs
import proofs.«404693_j60936995996121_3_alg».proof.Proof.Gen.ReferenceIdeal.Run
import proofs.«404693_j60936995996121_3_alg».proof.Proof.Gen.ReferenceIdeal.Read
import proofs.«404693_j60936995996121_3_alg».proof.Proof.Bridge
import proofs.«404693_j60936995996121_3_alg».proof.Proof.RefHist
import Idealize.ShloMosaic.Adequacy
import Idealize.ShloMosaic.Init

noncomputable section

namespace Cert.Proof

open Idealize.ShloMosaic Idealize.ShloMosaic.ValueIdx Idealize.SL.Sem

/-- The word-level kernel program runs and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => (h c).2.2.2)
    (Cert.ReferenceIdeal.Value.run (F := Ideal) m ρ)

/-- From memories that agree on the two arguments both programs end with the same three results: the gathered
    scores and the sorted positions by the same operations of the same arguments, the histogram by the count of
    each expert along the flattened ids. -/
theorem algebraic : Cert.algebraic_KernelIdeal_ReferenceIdeal := by
  intro m ρ m' ρ' _ hagree
  refine ⟨_, _, _, Cert.KernelIdeal.Hist.run m ρ, ?_⟩
  refine (θ_run Cert.ReferenceIdeal.defs _ _).mono (fun _ h c => ⟨?_, ?_, ?_, (h c).2.2.2.1, (h c).2.2.2.2⟩)
    (Cert.ReferenceIdeal.Value.run (F := Ideal) m' ρ')
  · rw [(h c).1, (hagree c).1, (hagree c).2, Cert.ReferenceIdeal.Read.val_main_v13_eq]
    exact (Cert.KernelIdeal.Hist.gather_eq _ _).symm
  · rw [(h c).2.1, (hagree c).2, Cert.ReferenceIdeal.Read.val_main_v5_eq]
    exact (Cert.KernelIdeal.Hist.sort_eq _).symm
  · rw [(h c).2.2.1, (hagree c).2, Cert.ReferenceIdeal.Read.val_main_v4_eq]
    funext i
    obtain ⟨e, rfl⟩ : ∃ e : Fin 64, i = ix1 e := ⟨i 0, eq_ix1 i⟩
    rw [Cert.ReferenceIdeal.RefValue.hist_eq]
    exact (Cert.KernelIdeal.Hist.hist_count m c e).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
